-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S1000000x128 : Shape := ⟨2, ![1000000, 128]⟩
abbrev S1000000 : Shape := ⟨1, ![1000000]⟩
abbrev S500000x128 : Shape := ⟨2, ![500000, 128]⟩
abbrev S128 : Shape := ⟨1, ![128]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S200000 : S_.BroadcastsInDim S200000 (![] : Fin 0 → Fin S200000.rank)
  reducesTo_S200000_S_d0 : S200000.ReducesTo [0] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S1000000 : S_.BroadcastsInDim S1000000 (![] : Fin 0 → Fin S1000000.rank)
  reducesTo_S1000000_S_d0 : S1000000.ReducesTo [0] S_
  bcast_S_S500000x128 : S_.BroadcastsInDim S500000x128 (![] : Fin 0 → Fin S500000x128.rank)
  reducesTo_S500000x128_S_d0_1 : S500000x128.ReducesTo [0, 1] S_
  bcast_S_S128 : S_.BroadcastsInDim S128 (![] : Fin 0 → Fin S128.rank)
  reducesTo_S128_S_d0 : S128.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg3 : IVec S200000 32) (main_v62 : IVec S_ 1) (main_v67 : IVec S200000 1) : IVec S_ 1 :=
  let main_c_26 : IVec S_ 1 := constantI S_ 1 1#1
  let main_v68 : IVec S_ 1 := (fun x v => Host.reduce IntOp.andi x v reducesTo_S200000_S_d0 h_S_) main_v67 main_c_26
  let main_v69 : IVec S_ 1 := andi main_v62 main_v68
  let main_c_27 : IVec S_ 32 := constantI S_ 32 4294467296#32
  let main_v70 : IVec S200000 32 := broadcastInDim S200000 ![] bcast_S_S200000 main_c_27
  let main_v71 : IVec S200000 1 := cmpi .sge main_arg3 main_v70
  let main_c_28 : IVec S_ 32 := constantI S_ 32 500000#32
  let main_v72 : IVec S200000 32 := broadcastInDim S200000 ![] bcast_S_S200000 main_c_28
  let main_v73 : IVec S200000 1 := cmpi .slt main_arg3 main_v72
  let main_v74 : IVec S200000 1 := andi main_v71 main_v73
  let main_c_29 : IVec S_ 1 := constantI S_ 1 1#1
  let main_v75 : IVec S_ 1 := (fun x v => Host.reduce IntOp.andi x v reducesTo_S200000_S_d0 h_S_) main_v74 main_c_29
  let main_v76 : IVec S_ 1 := andi main_v69 main_v75
  main_v76

def fn_part3 {F : FTy → Type} [FloatOps F] (main_arg0 : IVec S200000 32) (main_arg1 : IVec S200000 32) (main_arg3 : IVec S200000 32) (main_arg4 : IVec S200000 32) (main_v48 : IVec S_ 1) (main_v50 : IVec S200000 1) : IVec S_ 1 :=
  let main_c_19 : IVec S_ 32 := constantI S_ 32 1000000#32
  let main_v51 : IVec S200000 32 := broadcastInDim S200000 ![] bcast_S_S200000 main_c_19
  let main_v52 : IVec S200000 1 := cmpi .slt main_arg0 main_v51
  let main_v53 : IVec S200000 1 := andi main_v50 main_v52
  let main_c_20 : IVec S_ 1 := constantI S_ 1 1#1
  let main_v54 : IVec S_ 1 := (fun x v => Host.reduce IntOp.andi x v reducesTo_S200000_S_d0 h_S_) main_v53 main_c_20
  let main_v55 : IVec S_ 1 := andi main_v48 main_v54
  let main_c_21 : IVec S_ 32 := constantI S_ 32 4293967296#32
  let main_v56 : IVec S200000 32 := broadcastInDim S200000 ![] bcast_S_S200000 main_c_21
  let main_v57 : IVec S200000 1 := cmpi .sge main_arg1 main_v56
  let main_c_22 : IVec S_ 32 := constantI S_ 32 1000000#32
  let main_v58 : IVec S200000 32 := broadcastInDim S200000 ![] bcast_S_S200000 main_c_22
  let main_v59 : IVec S200000 1 := cmpi .slt main_arg1 main_v58
  let main_v60 : IVec S200000 1 := andi main_v57 main_v59
  let main_c_23 : IVec S_ 1 := constantI S_ 1 1#1
  let main_v61 : IVec S_ 1 := (fun x v => Host.reduce IntOp.andi x v reducesTo_S200000_S_d0 h_S_) main_v60 main_c_23
  let main_v62 : IVec S_ 1 := andi main_v55 main_v61
  let main_c_24 : IVec S_ 32 := constantI S_ 32 4293967296#32
  let main_v63 : IVec S200000 32 := broadcastInDim S200000 ![] bcast_S_S200000 main_c_24
  let main_v64 : IVec S200000 1 := cmpi .sge main_arg4 main_v63
  let main_c_25 : IVec S_ 32 := constantI S_ 32 1000000#32
  let main_v65 : IVec S200000 32 := broadcastInDim S200000 ![] bcast_S_S200000 main_c_25
  let main_v66 : IVec S200000 1 := cmpi .slt main_arg4 main_v65
  let main_v67 : IVec S200000 1 := andi main_v64 main_v66
  fn_part4 (F := F) main_arg3 main_v62 main_v67

def fn_part2 {F : FTy → Type} [FloatOps F] (main_arg0 : IVec S200000 32) (main_arg1 : IVec S200000 32) (main_arg3 : IVec S200000 32) (main_arg4 : IVec S200000 32) (main_arg11 : FVec F S512 .f32) (main_arg12 : FVec F S512x256 .f32) (main_arg13 : FVec F S256 .f32) (main_v33 : IVec S_ 1) : IVec S_ 1 :=
  let main_v34 : FVec F S512 .f32 := Host.absf main_arg11
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg12
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 4293967296#32
  let main_v49 : IVec S200000 32 := broadcastInDim S200000 ![] bcast_S_S200000 main_c_18
  let main_v50 : IVec S200000 1 := cmpi .sge main_arg0 main_v49
  fn_part3 (F := F) main_arg0 main_arg1 main_arg3 main_arg4 main_v48 main_v50

def fn_part1 {F : FTy → Type} [FloatOps F] (main_arg0 : IVec S200000 32) (main_arg1 : IVec S200000 32) (main_arg3 : IVec S200000 32) (main_arg4 : IVec S200000 32) (main_arg8 : FVec F S128 .f32) (main_arg9 : FVec F S128 .f32) (main_arg10 : FVec F S512x512 .f32) (main_arg11 : FVec F S512 .f32) (main_arg12 : FVec F S512x256 .f32) (main_arg13 : FVec F S256 .f32) (main_v13 : IVec S_ 1) (main_v16 : IVec S500000x128 1) : IVec S_ 1 :=
  let main_c_5 : IVec S_ 1 := constantI S_ 1 1#1
  let main_v17 : IVec S_ 1 := (fun x v => Host.reduce IntOp.andi x v reducesTo_S500000x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x512 .f32 := Host.absf main_arg10
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg0 main_arg1 main_arg3 main_arg4 main_arg11 main_arg12 main_arg13 main_v33

def fn {F : FTy → Type} [FloatOps F] (main_arg0 : IVec S200000 32) (main_arg1 : IVec S200000 32) (main_arg2 : FVec F S200000 .f32) (main_arg3 : IVec S200000 32) (main_arg4 : IVec S200000 32) (main_arg5 : FVec F S1000000x128 .f32) (main_arg6 : FVec F S1000000 .f32) (main_arg7 : FVec F S500000x128 .f32) (main_arg8 : FVec F S128 .f32) (main_arg9 : FVec F S128 .f32) (main_arg10 : FVec F S512x512 .f32) (main_arg11 : FVec F S512 .f32) (main_arg12 : FVec F S512x256 .f32) (main_arg13 : FVec F S256 .f32) : IVec S_ 1 :=
  let main_v0 : FVec F S200000 .f32 := Host.absf main_arg2
  let main_cst : FVec F S_ .f32 := constant S_ .f32 0x7F800000#32
  let main_v1 : FVec F S200000 .f32 := broadcastInDim S200000 ![] bcast_S_S200000 main_cst
  let main_v2 : IVec S200000 1 := cmpf .olt main_v0 main_v1
  let main_c : IVec S_ 1 := constantI S_ 1 1#1
  let main_v3 : IVec S_ 1 := (fun x v => Host.reduce IntOp.andi x v reducesTo_S200000_S_d0 h_S_) main_v2 main_c
  let main_v4 : FVec F S1000000x128 .f32 := Host.absf main_arg5
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S1000000 .f32 := Host.absf main_arg6
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S500000x128 .f32 := Host.absf main_arg7
  let main_cst_4 : FVec F S_ .f32 := constant S_ .f32 0x7F800000#32
  let main_v15 : FVec F S500000x128 .f32 := broadcastInDim S500000x128 ![] bcast_S_S500000x128 main_cst_4
  let main_v16 : IVec S500000x128 1 := cmpf .olt main_v14 main_v15
  fn_part1 (F := F) main_arg0 main_arg1 main_arg3 main_arg4 main_arg8 main_arg9 main_arg10 main_arg11 main_arg12 main_arg13 main_v13 main_v16
-- ==== Kernel.lean ====
abbrev S200000 : Shape := ⟨1, ![200000]⟩
abbrev S1000000x128 : Shape := ⟨2, ![1000000, 128]⟩
abbrev S1000000 : Shape := ⟨1, ![1000000]⟩
abbrev S500000x128 : Shape := ⟨2, ![500000, 128]⟩
abbrev S128 : Shape := ⟨1, ![128]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S200000x128 : Shape := ⟨2, ![200000, 128]⟩
abbrev S1x128 : Shape := ⟨2, ![1, 128]⟩
abbrev S1x512 : Shape := ⟨2, ![1, 512]⟩
abbrev S1x256 : Shape := ⟨2, ![1, 256]⟩
abbrev S200000x256 : Shape := ⟨2, ![200000, 256]⟩
abbrev S2000x128 : Shape := ⟨2, ![2000, 128]⟩
abbrev S2000x1 : Shape := ⟨2, ![2000, 1]⟩
abbrev S2000x256 : Shape := ⟨2, ![2000, 256]⟩
abbrev S128x512 : Shape := ⟨2, ![128, 512]⟩
abbrev S2000x512 : Shape := ⟨2, ![2000, 512]⟩

abbrev nBuf : Space → Nat
  | .hbm => 117
  | .vmem => 16
  | .smem => 0
  | _ => 0

abbrev bufTy : (tb : Table) → Fin (tcTables nBuf tb) → BufTy
  | .hbm, ⟨0, _⟩ => ⟨S200000, .i32⟩
  | .hbm, ⟨1, _⟩ => ⟨S200000, .i32⟩
  | .hbm, ⟨2, _⟩ => ⟨S200000, .f32⟩
  | .hbm, ⟨3, _⟩ => ⟨S200000, .i32⟩
  | .hbm, ⟨4, _⟩ => ⟨S200000, .i32⟩
  | .hbm, ⟨5, _⟩ => ⟨S1000000x128, .f32⟩
  | .hbm, ⟨6, _⟩ => ⟨S1000000, .f32⟩
  | .hbm, ⟨7, _⟩ => ⟨S500000x128, .f32⟩
  | .hbm, ⟨8, _⟩ => ⟨S128, .f32⟩
  | .hbm, ⟨9, _⟩ => ⟨S128, .f32⟩
  | .hbm, ⟨10, _⟩ => ⟨S512x512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S_, .i32⟩
  | .hbm, ⟨15, _⟩ => ⟨S200000, .i32⟩
  | .hbm, ⟨16, _⟩ => ⟨S200000, .i1⟩
  | .hbm, ⟨17, _⟩ => ⟨S_, .i32⟩
  | .hbm, ⟨18, _⟩ => ⟨S200000, .i32⟩
  | .hbm, ⟨19, _⟩ => ⟨S200000, .i32⟩
  | .hbm, ⟨20, _⟩ => ⟨S200000, .i32⟩
  | .hbm, ⟨21, _⟩ => ⟨S200000x1, .i32⟩
  | .hbm, ⟨22, _⟩ => ⟨S1, .i32⟩
  | .hbm, ⟨23, _⟩ => ⟨S_, .i32⟩
  | .hbm, ⟨24, _⟩ => ⟨S200000x1, .i32⟩
  | .hbm, ⟨25, _⟩ => ⟨S200000x1, .i1⟩
  | .hbm, ⟨26, _⟩ => ⟨S1x1, .i32⟩
  | .hbm, ⟨27, _⟩ => ⟨S200000x1, .i32⟩
  | .hbm, ⟨28, _⟩ => ⟨S200000x1, .i1⟩
  | .hbm, ⟨29, _⟩ => ⟨S200000x1, .i1⟩
  | .hbm, ⟨30, _⟩ => ⟨S_, .i1⟩
  | .hbm, ⟨31, _⟩ => ⟨S200000, .i1⟩
  | .hbm, ⟨32, _⟩ => ⟨S200000x128, .f32⟩
  | .hbm, ⟨33, _⟩ => ⟨S200000x128, .i1⟩
  | .hbm, ⟨34, _⟩ => ⟨S_, .f32⟩
  | .hbm, ⟨35, _⟩ => ⟨S200000x128, .f32⟩
  | .hbm, ⟨36, _⟩ => ⟨S200000x128, .f32⟩
  | .hbm, ⟨37, _⟩ => ⟨S200000x128, .bf16⟩
  | .hbm, ⟨38, _⟩ => ⟨S_, .i32⟩
  | .hbm, ⟨39, _⟩ => ⟨S200000, .i32⟩
  | .hbm, ⟨40, _⟩ => ⟨S200000, .i1⟩
  | .hbm, ⟨41, _⟩ => ⟨S_, .i32⟩
  | .hbm, ⟨42, _⟩ => ⟨S200000, .i32⟩
  | .hbm, ⟨43, _⟩ => ⟨S200000, .i32⟩
  | .hbm, ⟨44, _⟩ => ⟨S200000, .i32⟩
  | .hbm, ⟨45, _⟩ => ⟨S200000x1, .i32⟩
  | .hbm, ⟨46, _⟩ => ⟨S1, .i32⟩
  | .hbm, ⟨47, _⟩ => ⟨S_, .i32⟩
  | .hbm, ⟨48, _⟩ => ⟨S200000x1, .i32⟩
  | .hbm, ⟨49, _⟩ => ⟨S200000x1, .i1⟩
  | .hbm, ⟨50, _⟩ => ⟨S1x1, .i32⟩
  | .hbm, ⟨51, _⟩ => ⟨S200000x1, .i32⟩
  | .hbm, ⟨52, _⟩ => ⟨S200000x1, .i1⟩
  | .hbm, ⟨53, _⟩ => ⟨S200000x1, .i1⟩
  | .hbm, ⟨54, _⟩ => ⟨S_, .i1⟩
  | .hbm, ⟨55, _⟩ => ⟨S200000, .i1⟩
  | .hbm, ⟨56, _⟩ => ⟨S200000x128, .f32⟩
  | .hbm, ⟨57, _⟩ => ⟨S200000x128, .i1⟩
  | .hbm, ⟨58, _⟩ => ⟨S_, .f32⟩
  | .hbm, ⟨59, _⟩ => ⟨S200000x128, .f32⟩
  | .hbm, ⟨60, _⟩ => ⟨S200000x128, .f32⟩
  | .hbm, ⟨61, _⟩ => ⟨S200000x128, .bf16⟩
  | .hbm, ⟨62, _⟩ => ⟨S_, .i32⟩
  | .hbm, ⟨63, _⟩ => ⟨S200000, .i32⟩
  | .hbm, ⟨64, _⟩ => ⟨S200000, .i1⟩
  | .hbm, ⟨65, _⟩ => ⟨S_, .i32⟩
  | .hbm, ⟨66, _⟩ => ⟨S200000, .i32⟩
  | .hbm, ⟨67, _⟩ => ⟨S200000, .i32⟩
  | .hbm, ⟨68, _⟩ => ⟨S200000, .i32⟩
  | .hbm, ⟨69, _⟩ => ⟨S200000x1, .i32⟩
  | .hbm, ⟨70, _⟩ => ⟨S1, .i32⟩
  | .hbm, ⟨71, _⟩ => ⟨S_, .i32⟩
  | .hbm, ⟨72, _⟩ => ⟨S200000x1, .i32⟩
  | .hbm, ⟨73, _⟩ => ⟨S200000x1, .i1⟩
  | .hbm, ⟨74, _⟩ => ⟨S1x1, .i32⟩
  | .hbm, ⟨75, _⟩ => ⟨S200000x1, .i32⟩
  | .hbm, ⟨76, _⟩ => ⟨S200000x1, .i1⟩
  | .hbm, ⟨77, _⟩ => ⟨S200000x1, .i1⟩
  | .hbm, ⟨78, _⟩ => ⟨S_, .i1⟩
  | .hbm, ⟨79, _⟩ => ⟨S200000, .i1⟩
  | .hbm, ⟨80, _⟩ => ⟨S200000, .f32⟩
  | .hbm, ⟨81, _⟩ => ⟨S_, .f32⟩
  | .hbm, ⟨82, _⟩ => ⟨S200000, .f32⟩
  | .hbm, ⟨83, _⟩ => ⟨S200000, .f32⟩
  | .hbm, ⟨84, _⟩ => ⟨S200000, .f32⟩
  | .hbm, ⟨85, _⟩ => ⟨S200000x1, .f32⟩
  | .hbm, ⟨86, _⟩ => ⟨S_, .i32⟩
  | .hbm, ⟨87, _⟩ => ⟨S200000, .i32⟩
  | .hbm, ⟨88, _⟩ => ⟨S200000, .i1⟩
  | .hbm, ⟨89, _⟩ => ⟨S_, .i32⟩
  | .hbm, ⟨90, _⟩ => ⟨S200000, .i32⟩
  | .hbm, ⟨91, _⟩ => ⟨S200000, .i32⟩
  | .hbm, ⟨92, _⟩ => ⟨S200000, .i32⟩
  | .hbm, ⟨93, _⟩ => ⟨S200000x1, .i32⟩
  | .hbm, ⟨94, _⟩ => ⟨S1, .i32⟩
  | .hbm, ⟨95, _⟩ => ⟨S_, .i32⟩
  | .hbm, ⟨96, _⟩ => ⟨S200000x1, .i32⟩
  | .hbm, ⟨97, _⟩ => ⟨S200000x1, .i1⟩
  | .hbm, ⟨98, _⟩ => ⟨S1x1, .i32⟩
  | .hbm, ⟨99, _⟩ => ⟨S200000x1, .i32⟩
  | .hbm, ⟨100, _⟩ => ⟨S200000x1, .i1⟩
  | .hbm, ⟨101, _⟩ => ⟨S200000x1, .i1⟩
  | .hbm, ⟨102, _⟩ => ⟨S_, .i1⟩
  | .hbm, ⟨103, _⟩ => ⟨S200000, .i1⟩
  | .hbm, ⟨104, _⟩ => ⟨S200000x128, .f32⟩
  | .hbm, ⟨105, _⟩ => ⟨S200000x128, .i1⟩
  | .hbm, ⟨106, _⟩ => ⟨S_, .f32⟩
  | .hbm, ⟨107, _⟩ => ⟨S200000x128, .f32⟩
  | .hbm, ⟨108, _⟩ => ⟨S200000x128, .f32⟩
  | .hbm, ⟨109, _⟩ => ⟨S200000x128, .bf16⟩
  | .hbm, ⟨110, _⟩ => ⟨S1x128, .f32⟩
  | .hbm, ⟨111, _⟩ => ⟨S1x128, .f32⟩
  | .hbm, ⟨112, _⟩ => ⟨S1x512, .f32⟩
  | .hbm, ⟨113, _⟩ => ⟨S1x256, .f32⟩
  | .hbm, ⟨114, _⟩ => ⟨S512x512, .bf16⟩
  | .hbm, ⟨115, _⟩ => ⟨S512x256, .bf16⟩
  | .hbm, ⟨116, _⟩ => ⟨S200000x256, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x1, .f32⟩
  | .local _ .vmem, ⟨5, _⟩ => ⟨S2000x1, .f32⟩
  | .local _ .vmem, ⟨6, _⟩ => ⟨S2000x128, .bf16⟩
  | .local _ .vmem, ⟨7, _⟩ => ⟨S2000x128, .bf16⟩
  | .local _ .vmem, ⟨8, _⟩ => ⟨S1x128, .f32⟩
  | .local _ .vmem, ⟨9, _⟩ => ⟨S1x128, .f32⟩
  | .local _ .vmem, ⟨10, _⟩ => ⟨S512x512, .bf16⟩
  | .local _ .vmem, ⟨11, _⟩ => ⟨S1x512, .f32⟩
  | .local _ .vmem, ⟨12, _⟩ => ⟨S512x256, .bf16⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v2 : Ref sig .tc := ⟨.hbm, 60, rfl⟩
abbrev main_v3 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v4 : Ref sig .tc := ⟨.hbm, 83, rfl⟩
abbrev main_v5 : Ref sig .tc := ⟨.hbm, 84, rfl⟩
abbrev main_v6 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v7 : Ref sig .tc := ⟨.hbm, 108, rfl⟩
abbrev main_v8 : Ref sig .tc := ⟨.hbm, 109, rfl⟩
abbrev main_v9 : Ref sig .tc := ⟨.hbm, 110, rfl⟩
abbrev main_v10 : Ref sig .tc := ⟨.hbm, 111, rfl⟩
abbrev main_v11 : Ref sig .tc := ⟨.hbm, 112, rfl⟩
abbrev main_v12 : Ref sig .tc := ⟨.hbm, 113, rfl⟩
abbrev main_v13 : Ref sig .tc := ⟨.hbm, 114, rfl⟩
abbrev main_v14 : Ref sig .tc := ⟨.hbm, 115, rfl⟩
abbrev main_v15 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x128_0 : S200000.BroadcastsInDim S200000x128 (![0] : Fin 1 → Fin S200000x128.rank)
  bcast_S_S200000x128 : S_.BroadcastsInDim S200000x128 (![] : Fin 0 → Fin S200000x128.rank)
  bitsLt_bf16_f32 : FTy.bits .bf16 < FTy.bits .f32
  shapeCasts_S200000_S200000x1 : S200000.ShapeCasts S200000x1
  shapeCasts_S128_S1x128 : S128.ShapeCasts S1x128
  shapeCasts_S512_S1x512 : S512.ShapeCasts S1x512
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S512x512_S128x512_0_0 : ∀ a, (![0, 0] : Fin 2 → Nat) a + S128x512.size a ≤ S512x512.size a
  h_S128x512 : 0 < S128x512.numel
  shapeCasts_S128x512_S128x512 : S128x512.ShapeCasts S128x512
  inb_S512x512_S128x512_128_0 : ∀ a, (![128, 0] : Fin 2 → Nat) a + S128x512.size a ≤ S512x512.size a
  inb_S512x512_S128x512_256_0 : ∀ a, (![256, 0] : Fin 2 → Nat) a + S128x512.size a ≤ S512x512.size a
  inb_S512x512_S128x512_384_0 : ∀ a, (![384, 0] : Fin 2 → Nat) a + S128x512.size a ≤ S512x512.size a
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S1000000x128_S200000x1_S200000x128_1_0_n_n_0_1_1128_wf : GatherDims.WF S1000000x128 S200000x1 S200000x128 [1] [0] [] [0] [] 1 ![1, 128]
  gather_S1000000_S200000x1_S200000_n_0_n_n_0_1_1_wf : GatherDims.WF S1000000 S200000x1 S200000 [] [0] [] [0] [] 1 ![1]
  gather_S500000x128_S200000x1_S200000x128_1_0_n_n_0_1_1128_wf : GatherDims.WF S500000x128 S200000x1 S200000x128 [1] [0] [] [0] [] 1 ![1, 128]
  dot_S2000x128_S128x512_S2000x512_1_0_0_1_n_n_wf : DotDims.WF S2000x128 S128x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .bf16 = 32 ∨ (Rect.block (s := S200000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .bf16 = 32 ∨ (Rect.block (s := S200000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S200000x1.size a
  hwx0_2 : ∀ i : grid0.Coords, EltTy.bits .f32 = 32 ∨ (Rect.block (s := S200000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S200000x128.size a
  hwx0_3 : ∀ i : grid0.Coords, EltTy.bits .bf16 = 32 ∨ (Rect.block (s := S200000x128) S2000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .bf16 = 32 ∨ (Rect.block (s := S512x256) S512x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S200000x256.size a
  hwx0_10 : ∀ i : grid0.Coords, EltTy.bits .f32 = 32 ∨ (Rect.block (s := S200000x256) S2000x256.size (cc0_transform_10 i) (hinb0_10 i)).WholeWords (EltTy.packing .f32)

variable [Facts₀]

def gather_S1000000x128_S200000x1_S200000x128_1_0_n_n_0_1_1128 : GatherDims S1000000x128 S200000x1 S200000x128 where
  offsetDims := [1]
  collapsedSliceDims := [0]
  operandBatchingDims := []
  startIndicesBatchingDims := []
  startIndexMap := [0]
  indexVectorDim := 1
  sliceSizes := ![1, 128]
  wf := gather_S1000000x128_S200000x1_S200000x128_1_0_n_n_0_1_1128_wf
def gather_S1000000_S200000x1_S200000_n_0_n_n_0_1_1 : GatherDims S1000000 S200000x1 S200000 where
  offsetDims := []
  collapsedSliceDims := [0]
  operandBatchingDims := []
  startIndicesBatchingDims := []
  startIndexMap := [0]
  indexVectorDim := 1
  sliceSizes := ![1]
  wf := gather_S1000000_S200000x1_S200000_n_0_n_n_0_1_1_wf
def gather_S500000x128_S200000x1_S200000x128_1_0_n_n_0_1_1128 : GatherDims S500000x128 S200000x1 S200000x128 where
  offsetDims := [1]
  collapsedSliceDims := [0]
  operandBatchingDims := []
  startIndicesBatchingDims := []
  startIndexMap := [0]
  indexVectorDim := 1
  sliceSizes := ![1, 128]
  wf := gather_S500000x128_S200000x1_S200000x128_1_0_n_n_0_1_1128_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S200000 : Shape := ⟨1, ![200000]⟩
abbrev S1000000x128 : Shape := ⟨2, ![1000000, 128]⟩
abbrev S1000000 : Shape := ⟨1, ![1000000]⟩
abbrev S500000x128 : Shape := ⟨2, ![500000, 128]⟩
abbrev S128 : Shape := ⟨1, ![128]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩
abbrev S200000x1 : Shape := ⟨2, ![200000, 1]⟩
abbrev S200000x128 : Shape := ⟨2, ![200000, 128]⟩
abbrev S1x128 : Shape := ⟨2, ![1, 128]⟩
abbrev S200000x512 : Shape := ⟨2, ![200000, 512]⟩
abbrev S1x512 : Shape := ⟨2, ![1, 512]⟩
abbrev S200000x256 : Shape := ⟨2, ![200000, 256]⟩
abbrev S1x256 : Shape := ⟨2, ![1, 256]⟩

abbrev nBuf : Space → Nat
  | .hbm => 72
  | .vmem => 0
  | .smem => 0
  | _ => 0

abbrev bufTy : (tb : Table) → Fin (tcTables nBuf tb) → BufTy
  | .hbm, ⟨0, _⟩ => ⟨S200000, .i32⟩
  | .hbm, ⟨1, _⟩ => ⟨S200000, .i32⟩
  | .hbm, ⟨2, _⟩ => ⟨S200000, .f32⟩
  | .hbm, ⟨3, _⟩ => ⟨S200000, .i32⟩
  | .hbm, ⟨4, _⟩ => ⟨S200000, .i32⟩
  | .hbm, ⟨5, _⟩ => ⟨S1000000x128, .f32⟩
  | .hbm, ⟨6, _⟩ => ⟨S1000000, .f32⟩
  | .hbm, ⟨7, _⟩ => ⟨S500000x128, .f32⟩
  | .hbm, ⟨8, _⟩ => ⟨S128, .f32⟩
  | .hbm, ⟨9, _⟩ => ⟨S128, .f32⟩
  | .hbm, ⟨10, _⟩ => ⟨S512x512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S_, .i32⟩
  | .hbm, ⟨15, _⟩ => ⟨S200000, .i32⟩
  | .hbm, ⟨16, _⟩ => ⟨S200000, .i1⟩
  | .hbm, ⟨17, _⟩ => ⟨S_, .i32⟩
  | .hbm, ⟨18, _⟩ => ⟨S200000, .i32⟩
  | .hbm, ⟨19, _⟩ => ⟨S200000, .i32⟩
  | .hbm, ⟨20, _⟩ => ⟨S200000, .i32⟩
  | .hbm, ⟨21, _⟩ => ⟨S200000x1, .i32⟩
  | .hbm, ⟨22, _⟩ => ⟨S200000x128, .f32⟩
  | .hbm, ⟨23, _⟩ => ⟨S_, .i32⟩
  | .hbm, ⟨24, _⟩ => ⟨S200000, .i32⟩
  | .hbm, ⟨25, _⟩ => ⟨S200000, .i1⟩
  | .hbm, ⟨26, _⟩ => ⟨S_, .i32⟩
  | .hbm, ⟨27, _⟩ => ⟨S200000, .i32⟩
  | .hbm, ⟨28, _⟩ => ⟨S200000, .i32⟩
  | .hbm, ⟨29, _⟩ => ⟨S200000, .i32⟩
  | .hbm, ⟨30, _⟩ => ⟨S200000x1, .i32⟩
  | .hbm, ⟨31, _⟩ => ⟨S200000x128, .f32⟩
  | .hbm, ⟨32, _⟩ => ⟨S_, .i32⟩
  | .hbm, ⟨33, _⟩ => ⟨S200000, .i32⟩
  | .hbm, ⟨34, _⟩ => ⟨S200000, .i1⟩
  | .hbm, ⟨35, _⟩ => ⟨S_, .i32⟩
  | .hbm, ⟨36, _⟩ => ⟨S200000, .i32⟩
  | .hbm, ⟨37, _⟩ => ⟨S200000, .i32⟩
  | .hbm, ⟨38, _⟩ => ⟨S200000, .i32⟩
  | .hbm, ⟨39, _⟩ => ⟨S200000x1, .i32⟩
  | .hbm, ⟨40, _⟩ => ⟨S200000, .f32⟩
  | .hbm, ⟨41, _⟩ => ⟨S200000, .f32⟩
  | .hbm, ⟨42, _⟩ => ⟨S200000x1, .f32⟩
  | .hbm, ⟨43, _⟩ => ⟨S1x128, .f32⟩
  | .hbm, ⟨44, _⟩ => ⟨S200000x128, .f32⟩
  | .hbm, ⟨45, _⟩ => ⟨S200000x128, .f32⟩
  | .hbm, ⟨46, _⟩ => ⟨S200000x128, .f32⟩
  | .hbm, ⟨47, _⟩ => ⟨S1x128, .f32⟩
  | .hbm, ⟨48, _⟩ => ⟨S200000x128, .f32⟩
  | .hbm, ⟨49, _⟩ => ⟨S200000x128, .f32⟩
  | .hbm, ⟨50, _⟩ => ⟨S200000x128, .f32⟩
  | .hbm, ⟨51, _⟩ => ⟨S_, .i32⟩
  | .hbm, ⟨52, _⟩ => ⟨S200000, .i32⟩
  | .hbm, ⟨53, _⟩ => ⟨S200000, .i1⟩
  | .hbm, ⟨54, _⟩ => ⟨S_, .i32⟩
  | .hbm, ⟨55, _⟩ => ⟨S200000, .i32⟩
  | .hbm, ⟨56, _⟩ => ⟨S200000, .i32⟩
  | .hbm, ⟨57, _⟩ => ⟨S200000, .i32⟩
  | .hbm, ⟨58, _⟩ => ⟨S200000x1, .i32⟩
  | .hbm, ⟨59, _⟩ => ⟨S200000x128, .f32⟩
  | .hbm, ⟨60, _⟩ => ⟨S200000x512, .f32⟩
  | .hbm, ⟨61, _⟩ => ⟨S200000x512, .f32⟩
  | .hbm, ⟨62, _⟩ => ⟨S1x512, .f32⟩
  | .hbm, ⟨63, _⟩ => ⟨S200000x512, .f32⟩
  | .hbm, ⟨64, _⟩ => ⟨S200000x512, .f32⟩
  | .hbm, ⟨65, _⟩ => ⟨S_, .f32⟩
  | .hbm, ⟨66, _⟩ => ⟨S200000x512, .f32⟩
  | .hbm, ⟨67, _⟩ => ⟨S200000x512, .f32⟩
  | .hbm, ⟨68, _⟩ => ⟨S200000x256, .f32⟩
  | .hbm, ⟨69, _⟩ => ⟨S1x256, .f32⟩
  | .hbm, ⟨70, _⟩ => ⟨S200000x256, .f32⟩
  | .hbm, ⟨71, _⟩ => ⟨S200000x256, .f32⟩
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call0_cst : Ref sig .tc := ⟨.hbm, 65, rfl⟩
abbrev main_call0_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S128_S1x128_1 : S128.BroadcastsInDim S1x128 (![1] : Fin 1 → Fin S1x128.rank)
  bcast_S200000x1_S200000x128_0_1 : S200000x1.BroadcastsInDim S200000x128 (![0, 1] : Fin 2 → Fin S200000x128.rank)
  bcast_S1x128_S200000x128_0_1 : S1x128.BroadcastsInDim S200000x128 (![0, 1] : Fin 2 → Fin S200000x128.rank)
  concatenates_S200000x128_S200000x128_S200000x128_S200000x128_S200000x512_d1 : Shape.Concatenates [S200000x128, S200000x128, S200000x128, S200000x128] S200000x512 1
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  gather_S1000000x128_S200000x1_S200000x128_1_0_n_n_0_1_1128_wf : GatherDims.WF S1000000x128 S200000x1 S200000x128 [1] [0] [] [0] [] 1 ![1, 128]
  gather_S1000000_S200000x1_S200000_n_0_n_n_0_1_1_wf : GatherDims.WF S1000000 S200000x1 S200000 [] [0] [] [0] [] 1 ![1]
  gather_S500000x128_S200000x1_S200000x128_1_0_n_n_0_1_1128_wf : GatherDims.WF S500000x128 S200000x1 S200000x128 [1] [0] [] [0] [] 1 ![1, 128]
  dot_S200000x512_S512x512_S200000x512_1_0_0_1_n_n_wf : DotDims.WF S200000x512 S512x512 S200000x512 [1] [0] [0] [1] [] []
  dot_S200000x512_S512x256_S200000x256_1_0_0_1_n_n_wf : DotDims.WF S200000x512 S512x256 S200000x256 [1] [0] [0] [1] [] []

variable [Facts₀]

def gather_S1000000x128_S200000x1_S200000x128_1_0_n_n_0_1_1128 : GatherDims S1000000x128 S200000x1 S200000x128 where
  offsetDims := [1]
  collapsedSliceDims := [0]
  operandBatchingDims := []
  startIndicesBatchingDims := []
  startIndexMap := [0]
  indexVectorDim := 1
  sliceSizes := ![1, 128]
  wf := gather_S1000000x128_S200000x1_S200000x128_1_0_n_n_0_1_1128_wf
def gather_S1000000_S200000x1_S200000_n_0_n_n_0_1_1 : GatherDims S1000000 S200000x1 S200000 where
  offsetDims := []
  collapsedSliceDims := [0]
  operandBatchingDims := []
  startIndicesBatchingDims := []
  startIndexMap := [0]
  indexVectorDim := 1
  sliceSizes := ![1]
  wf := gather_S1000000_S200000x1_S200000_n_0_n_n_0_1_1_wf
def gather_S500000x128_S200000x1_S200000x128_1_0_n_n_0_1_1128 : GatherDims S500000x128 S200000x1 S200000x128 where
  offsetDims := [1]
  collapsedSliceDims := [0]
  operandBatchingDims := []
  startIndicesBatchingDims := []
  startIndexMap := [0]
  indexVectorDim := 1
  sliceSizes := ![1, 128]
  wf := gather_S500000x128_S200000x1_S200000x128_1_0_n_n_0_1_1128_wf
def dot_S200000x512_S512x512_S200000x512_1_0_0_1_n_n : DotDims S200000x512 S512x512 S200000x512 where
  lhsContracting := [1]
  rhsContracting := [0]
  lhsNonContracting := [0]
  rhsNonContracting := [1]
  lhsBatch := []
  rhsBatch := []
  wf := dot_S200000x512_S512x512_S200000x512_1_0_0_1_n_n_wf
def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf

class Facts : Prop extends Facts₀ where

variable [Facts]
-- ==== Proof.IndexRange.lean ====
/-
  The index ranges the precondition states, and what the negative-index wrap makes of them.

  The precondition says, beside the finiteness of the float inputs, that every entry of the four index inputs is a
  valid position of the table it indexes in the usual signed convention: -N ≤ i < N for the three inputs that
  index tables of N = 1000000 rows and -N ≤ i < N with N = 500000 for the fourth.  Both programs first wrap a
  negative index by adding N.  For a 32-bit word i with -N ≤ i < N (signed), the wrapped word
  w = if i < 0 then i + N else i  satisfies 0 ≤ w ≤ N - 1: the addition does not overflow, because i < 0 and
  N < 2^30.
-/
import proofs.«420605_j55997783605364_2_alg».proof.Pre_finite_inputs
import proofs.«420605_j55997783605364_2_alg».proof.Proof.Gen.Pre_finite_inputs
import Idealize.ShloMosaic.Lib.ReduceAll
import Idealize.ShloMosaic.Lib.ValueIdx

noncomputable section

namespace Cert.IndexRange

open Idealize.ShloMosaic Idealize.ShloMosaic.ValueIdx

/-! ## The wrap of a word in [-N, N) lies in [0, N - 1] -/

/-- For words x, n, n1 with n = N, n1 = N - 1 as integers, 1 ≤ N < 2^30, and -N ≤ x < N: the wrapped word is in [0, N - 1]. -/
theorem wrap_int (N : ℤ) (hN : 1 ≤ N) (hN' : N < 2 ^ 30) (nN nN1 : BitVec 32) (hnN : nN.toInt = N)
    (hnN1 : nN1.toInt = N - 1) (x : BitVec 32) (hlo : -N ≤ x.toInt) (hhi : x.toInt < N) :
    (0#32).sle (if x.slt 0#32 then x + nN else x) = true ∧ (if x.slt 0#32 then x + nN else x).sle nN1 = true := by
  have h0 : (0#32 : BitVec 32).toInt = 0 := by decide
  by_cases h : x.toInt < 0
  · have hs : x.slt 0#32 = true := by simp only [BitVec.slt, h0, decide_eq_true_eq]; exact h
    rw [if_pos hs]
    have ha : (x + nN).toInt = x.toInt + N := by
      rw [BitVec.toInt_add, hnN, Int.bmod_def]
      split_ifs <;> omega
    simp only [BitVec.sle, h0, ha, hnN1, decide_eq_true_eq]
    omega
  · have hs : ¬ (x.slt 0#32 = true) := by simp only [BitVec.slt, h0, decide_eq_true_eq]; exact h
    rw [if_neg hs]
    simp only [BitVec.sle, h0, hnN1, decide_eq_true_eq]
    omega

theorem ofBool_eq_one (b : Bool) : BitVec.ofBool b = 1#1 ↔ b = true := by cases b <;> decide

/-- The same in the programs' own operations: from the two range comparisons (against the words of -N and N) to the
    two comparisons the fill mask makes of the wrapped word (against 0 and N - 1). -/
theorem wrap_mask (N : ℤ) (hN : 1 ≤ N) (hN' : N < 2 ^ 30) (mN nN nN1 : BitVec 32) (hmN : mN.toInt = -N) (hnN : nN.toInt = N)
    (hnN1 : nN1.toInt = N - 1) (x : BitVec 32)
    (hlo : IntOp.cmpi .sge x mN = 1#1) (hhi : IntOp.cmpi .slt x nN = 1#1) :
    IntOp.andi (IntOp.cmpi .sge (Scalar.select (IntOp.cmpi .slt x 0#32) (IntOp.addi x nN) x) 0#32)
      (IntOp.cmpi .sle (Scalar.select (IntOp.cmpi .slt x 0#32) (IntOp.addi x nN) x) nN1) = 1#1 := by
  unfold IntOp.cmpi at hlo hhi
  rw [ofBool_eq_one] at hlo hhi
  simp only [BitVec.sle, BitVec.slt, decide_eq_true_eq, hmN, hnN] at hlo hhi
  obtain ⟨h1, h2⟩ := wrap_int N hN hN' nN nN1 hnN hnN1 x hlo hhi
  have e : Scalar.select (IntOp.cmpi .slt x 0#32) (IntOp.addi x nN) x = (if x.slt 0#32 then x + nN else x) := by
    show (if BitVec.ofBool (x.slt 0#32) = 1 then x + nN else x) = _
    generalize x.slt 0#32 = b
    cases b <;> rfl
  rw [e, IntOp.andi_eq_one]
  unfold IntOp.cmpi
  rw [ofBool_eq_one, ofBool_eq_one]
  exact ⟨h1, h2⟩

/-! ## The precondition's four range conjuncts, entry by entry -/

open Cert.Pre_finite_inputs Cert.Pre_finite_inputs.Gen

instance : Subsingleton S_.Idx := ⟨fun _ _ => funext fun d => d.elim0⟩

/-- What the precondition says of the four index inputs: each entry lies in [-N, N), N the row count of its table. -/
theorem ranges (a0 a1 : IVec S200000 32) (a2 : FVec Ideal S200000 .f32) (a3 a4 : IVec S200000 32)
    (a5 : FVec Ideal S1000000x128 .f32) (a6 : FVec Ideal S1000000 .f32) (a7 : FVec Ideal S500000x128 .f32)
    (a8 a9 : FVec Ideal S128 .f32) (a10 : FVec Ideal S512x512 .f32) (a11 : FVec Ideal S512 .f32)
    (a12 : FVec Ideal S512x256 .f32) (a13 : FVec Ideal S256 .f32)
    (h : fn (F := Ideal) a0 a1 a2 a3 a4 a5 a6 a7 a8 a9 a10 a11 a12 a13 = fun _ => 1#1) :
    (∀ i, IntOp.cmpi .sge (a0 i) 4293967296#32 = 1#1 ∧ IntOp.cmpi .slt (a0 i) 1000000#32 = 1#1)
    ∧ (∀ i, IntOp.cmpi .sge (a1 i) 4293967296#32 = 1#1 ∧ IntOp.cmpi .slt (a1 i) 1000000#32 = 1#1)
    ∧ (∀ i, IntOp.cmpi .sge (a4 i) 4293967296#32 = 1#1 ∧ IntOp.cmpi .slt (a4 i) 1000000#32 = 1#1)
    ∧ (∀ i, IntOp.cmpi .sge (a3 i) 4294467296#32 = 1#1 ∧ IntOp.cmpi .slt (a3 i) 500000#32 = 1#1) := by
  have e := congrFun h ix0
  unfold fn fn_part1 fn_part2 fn_part3 fn_part4 at e
  simp only [andi, IntOp.andi_eq_one] at e
  obtain ⟨⟨⟨⟨-, h0⟩, h1⟩, h4⟩, h3⟩ := e
  refine ⟨fun i => ?_, fun i => ?_, fun i => ?_, fun i => ?_⟩
  · exact IntOp.andi_eq_one.1 (Host.reduce_andi_all _ _ _ _ _ h0 i)
  · exact IntOp.andi_eq_one.1 (Host.reduce_andi_all _ _ _ _ _ h1 i)
  · exact IntOp.andi_eq_one.1 (Host.reduce_andi_all _ _ _ _ _ h4 i)
  · exact IntOp.andi_eq_one.1 (Host.reduce_andi_all _ _ _ _ _ h3 i)

end Cert.IndexRange

end
-- ==== Proof.RowMlp.lean ====
/-
  One event's message and its two-layer perceptron, as plain functions of one row's data on the extended reals.

  An event's message is the row  [ source embedding | destination embedding | time encoding | event features ],
  four pieces of 128 columns, 512 in all; the time encoding of a time difference t is  cos (t · freq k + phase k).
  The first layer is  h j = Σ_{k < 512} message k · W1 k j,  the hidden activation  max (h j + b1 j) 0,  and the
  result  out q = Σ_{k < 512} max (h k + b1 k) 0 · W2 k q + b2 q.

  The first layer can be summed whole (one sum over the 512 message columns) or piece by piece (four sums of 128
  terms against the four row blocks of W1, added left to right).  Addition on the extended reals is commutative and
  associative, so the two agree with no finiteness needed: a sum over 512 consecutive positions is the sum of its
  four consecutive blocks of 128.
-/
import Idealize.ShloMosaic.PureOps.Ideal
import Mathlib.Algebra.BigOperators.Fin

noncomputable section

namespace Cert.RowMlp

open Idealize.ShloMosaic

/-- Column k of the first piece (columns 0 … 127 of the message). -/
abbrev c0 (k : Fin 128) : Fin 512 := ⟨k.val, by omega⟩
/-- Column k of the second piece (columns 128 … 255). -/
abbrev c1 (k : Fin 128) : Fin 512 := ⟨128 + k.val, by omega⟩
/-- Column k of the third piece (columns 256 … 383). -/
abbrev c2 (k : Fin 128) : Fin 512 := ⟨256 + k.val, by omega⟩
/-- Column k of the fourth piece (columns 384 … 511). -/
abbrev c3 (k : Fin 128) : Fin 512 := ⟨384 + k.val, by omega⟩

/-- A sum over 512 consecutive positions is the sum of its four consecutive blocks of 128, added left to right. -/
theorem sum_four_blocks {M : Type*} [AddCommMonoid M] (g : Fin 512 → M) :
    ∑ k, g k = ((∑ k : Fin 128, g (c0 k) + ∑ k : Fin 128, g (c1 k)) + ∑ k : Fin 128, g (c2 k)) + ∑ k : Fin 128, g (c3 k) := by
  refine (Fin.sum_univ_add (a := 384) (b := 128) g).trans ?_
  congr 1
  refine (Fin.sum_univ_add (a := 256) (b := 128) (fun i => g (Fin.castAdd 128 i))).trans ?_
  congr 1
  exact Fin.sum_univ_add (a := 128) (b := 128) (fun i => g (Fin.castAdd 128 (Fin.castAdd 128 i)))

/-- The time encoding of a time difference: cos (t · freq k + phase k). -/
def timeEnc (t : EReal) (fr ph : Fin 128 → EReal) (k : Fin 128) : EReal := Ideal.cos (t * fr k + ph k)

/-- The first layer summed piece by piece: the source, destination, time-encoding and feature pieces against the
    row blocks 0, 1, 2, 3 of W1, the four partial products added left to right. -/
def hidden (s d f : Fin 128 → EReal) (t : EReal) (fr ph : Fin 128 → EReal) (W1 : Fin 512 → Fin 512 → EReal)
    (j : Fin 512) : EReal :=
  ((∑ k : Fin 128, s k * W1 (c0 k) j + ∑ k : Fin 128, d k * W1 (c1 k) j)
    + ∑ k : Fin 128, timeEnc t fr ph k * W1 (c2 k) j) + ∑ k : Fin 128, f k * W1 (c3 k) j

/-- The first layer summed whole over a message row whose four pieces are the given ones is the piecewise sum. -/
theorem whole_eq_hidden (s d f : Fin 128 → EReal) (t : EReal) (fr ph : Fin 128 → EReal) (W1 : Fin 512 → Fin 512 → EReal)
    (msg : Fin 512 → EReal) (h0 : ∀ k, msg (c0 k) = s k) (h1 : ∀ k, msg (c1 k) = d k)
    (h2 : ∀ k, msg (c2 k) = timeEnc t fr ph k) (h3 : ∀ k, msg (c3 k) = f k) (j : Fin 512) :
    ∑ k, msg k * W1 k j = hidden s d f t fr ph W1 j := by
  rw [sum_four_blocks]
  simp only [h0, h1, h2, h3]
  rfl

/-- The second layer over a hidden pre-activation row h: Σ_k max (h k + b1 k) 0 · W2 k q + b2 q. -/
def out (h b1 : Fin 512 → EReal) (W2 : Fin 512 → Fin 256 → EReal) (b2 : Fin 256 → EReal) (q : Fin 256) : EReal :=
  (∑ k : Fin 512, max (h k + b1 k) 0 * W2 k q) + b2 q

end Cert.RowMlp

end
-- ==== Proof.ArraySpec.lean ====
/-
  The whole result array as one function of the ten operand arrays.

  Row P of the result depends on row P of the three gathered row arrays and of the time-difference column, and on
  the whole of the frequency row, the phase row, the two weight matrices and the two bias rows: entry (P, q) is the
  row function of Cert.RowMlp applied to those rows.
-/
import proofs.«420605_j55997783605364_2_alg».proof.Proof.RowMlp
import Idealize.ShloMosaic.Lib.ValueIdx

noncomputable section

namespace Cert.ArraySpec

open Idealize.ShloMosaic Idealize.ShloMosaic.ValueIdx Cert.RowMlp

/-- Entry (P, q) of the result: the second layer over the piecewise first layer of row P. -/
def G (eS eD : (⟨2, ![200000, 128]⟩ : Shape).Idx → EReal) (dt : (⟨2, ![200000, 1]⟩ : Shape).Idx → EReal)
    (eF : (⟨2, ![200000, 128]⟩ : Shape).Idx → EReal) (fr ph : (⟨2, ![1, 128]⟩ : Shape).Idx → EReal)
    (W1 : (⟨2, ![512, 512]⟩ : Shape).Idx → EReal) (b1 : (⟨2, ![1, 512]⟩ : Shape).Idx → EReal)
    (W2 : (⟨2, ![512, 256]⟩ : Shape).Idx → EReal) (b2 : (⟨2, ![1, 256]⟩ : Shape).Idx → EReal)
    (P : Fin 200000) (q : Fin 256) : EReal :=
  out (hidden (fun k => eS (ix2 P k)) (fun k => eD (ix2 P k)) (fun k => eF (ix2 P k)) (dt (ix2 P (0 : Fin 1)))
      (fun k => fr (ix2 (0 : Fin 1) k)) (fun k => ph (ix2 (0 : Fin 1) k)) (fun a b => W1 (ix2 a b)))
    (fun k => b1 (ix2 (0 : Fin 1) k)) (fun a b => W2 (ix2 a b)) (fun k => b2 (ix2 (0 : Fin 1) k)) q

/-- The result array: entry i is G at i's two coordinates. -/
def Garr (eS eD : (⟨2, ![200000, 128]⟩ : Shape).Idx → EReal) (dt : (⟨2, ![200000, 1]⟩ : Shape).Idx → EReal)
    (eF : (⟨2, ![200000, 128]⟩ : Shape).Idx → EReal) (fr ph : (⟨2, ![1, 128]⟩ : Shape).Idx → EReal)
    (W1 : (⟨2, ![512, 512]⟩ : Shape).Idx → EReal) (b1 : (⟨2, ![1, 512]⟩ : Shape).Idx → EReal)
    (W2 : (⟨2, ![512, 256]⟩ : Shape).Idx → EReal) (b2 : (⟨2, ![1, 256]⟩ : Shape).Idx → EReal) :
    (⟨2, ![200000, 256]⟩ : Shape).Idx → EReal :=
  fun i => G eS eD dt eF fr ph W1 b1 W2 b2 (i 0) (i 1)

/-- The result array at an index whose coordinates are P and q. -/
theorem Garr_at (eS eD : (⟨2, ![200000, 128]⟩ : Shape).Idx → EReal) (dt : (⟨2, ![200000, 1]⟩ : Shape).Idx → EReal)
    (eF : (⟨2, ![200000, 128]⟩ : Shape).Idx → EReal) (fr ph : (⟨2, ![1, 128]⟩ : Shape).Idx → EReal)
    (W1 : (⟨2, ![512, 512]⟩ : Shape).Idx → EReal) (b1 : (⟨2, ![1, 512]⟩ : Shape).Idx → EReal)
    (W2 : (⟨2, ![512, 256]⟩ : Shape).Idx → EReal) (b2 : (⟨2, ![1, 256]⟩ : Shape).Idx → EReal)
    (i : (⟨2, ![200000, 256]⟩ : Shape).Idx) (P : Fin 200000) (q : Fin 256) (h0 : (i 0).val = P.val) (h1 : (i 1).val = q.val) :
    Garr eS eD dt eF fr ph W1 b1 W2 b2 i = G eS eD dt eF fr ph W1 b1 W2 b2 P q := by
  have e0 : (i 0 : Fin 200000) = P := Fin.ext h0
  have e1 : (i 1 : Fin 256) = q := Fin.ext h1
  show G eS eD dt eF fr ph W1 b1 W2 b2 (i 0) (i 1) = _
  rw [e0, e1]

/-- The result array depends on the operand arrays only through their values. -/
theorem Garr_congr {eS eS' eD eD' : (⟨2, ![200000, 128]⟩ : Shape).Idx → EReal} {dt dt' : (⟨2, ![200000, 1]⟩ : Shape).Idx → EReal}
    {eF eF' : (⟨2, ![200000, 128]⟩ : Shape).Idx → EReal} {fr fr' ph ph' : (⟨2, ![1, 128]⟩ : Shape).Idx → EReal}
    {W1 W1' : (⟨2, ![512, 512]⟩ : Shape).Idx → EReal} {b1 b1' : (⟨2, ![1, 512]⟩ : Shape).Idx → EReal}
    {W2 W2' : (⟨2, ![512, 256]⟩ : Shape).Idx → EReal} {b2 b2' : (⟨2, ![1, 256]⟩ : Shape).Idx → EReal}
    (hS : eS = eS') (hD : eD = eD') (hT : dt = dt') (hF : eF = eF') (hfr : fr = fr') (hph : ph = ph') (hW1 : W1 = W1')
    (hb1 : b1 = b1') (hW2 : W2 = W2') (hb2 : b2 = b2') :
    Garr eS eD dt eF fr ph W1 b1 W2 b2 = Garr eS' eD' dt' eF' fr' ph' W1' b1' W2' b2' := by
  subst hS hD hT hF hfr hph hW1 hb1 hW2 hb2; rfl

end Cert.ArraySpec

end
-- ==== Proof.Views.lean ====
/-
  A vector viewed as a one-row or a one-column matrix.

  One program views a vector of n entries as a [1, n] or an [n, 1] matrix by a reshape, the other by a broadcast
  along a new axis.  Both read the vector's entry q at (0, q), respectively its entry p at (p, 0): the two views
  are the same matrix.
-/
import Idealize.ShloMosaic.Lib.Pipeline.Value
import Idealize.ShloMosaic.Lib.ValueIdx
import Idealize.ShloMosaic.Lib.ValueLayout

noncomputable section

namespace Cert.Views

open Idealize.ShloMosaic Idealize.ShloMosaic.ValueIdx

/-- The broadcast of a vector along a new leading axis is its reshape to one row. -/
theorem row_view {α : Type} {n : ℕ} (v : (⟨1, ![n]⟩ : Shape).Idx → α)
    (hb : (⟨1, ![n]⟩ : Shape).BroadcastsInDim ⟨2, ![1, n]⟩ ![1]) (hs : (⟨1, ![n]⟩ : Shape).ShapeCasts ⟨2, ![1, n]⟩) :
    broadcastInDim ⟨2, ![1, n]⟩ ![1] hb v = shapeCast ⟨2, ![1, n]⟩ v hs := by
  funext i
  obtain ⟨u, q, rfl⟩ : ∃ (u : Fin 1) (q : Fin n), i = ix2 u q := ⟨i 0, i 1, eq_ix2 i⟩
  rw [shapeCast_a_1a_apply]
  refine broadcastInDim_apply ![1] hb v (ix2 u q) (ix1 q) fun a => ?_
  match a with
  | ⟨0, _⟩ =>
    show q.val = if n = 1 then 0 else q.val
    split
    · have := q.isLt; omega
    · rfl

/-- The broadcast of a vector along a new trailing axis is its reshape to one column. -/
theorem col_view {α : Type} {n : ℕ} (v : (⟨1, ![n]⟩ : Shape).Idx → α)
    (hb : (⟨1, ![n]⟩ : Shape).BroadcastsInDim ⟨2, ![n, 1]⟩ ![0]) (hs : (⟨1, ![n]⟩ : Shape).ShapeCasts ⟨2, ![n, 1]⟩) :
    broadcastInDim ⟨2, ![n, 1]⟩ ![0] hb v = shapeCast ⟨2, ![n, 1]⟩ v hs := by
  funext i
  obtain ⟨p, z, rfl⟩ : ∃ (p : Fin n) (z : Fin 1), i = ix2 p z := ⟨i 0, i 1, eq_ix2 i⟩
  rw [shapeCast_apply v hs (ix2 p z) (ix1 p) (by
    rw [Shape.rowMajor_val_one, Shape.rowMajor_val_two]
    show p.val = p.val * 1 + z.val
    have := z.isLt; omega)]
  refine broadcastInDim_apply ![0] hb v (ix2 p z) (ix1 p) fun a => ?_
  match a with
  | ⟨0, _⟩ =>
    show p.val = if n = 1 then 0 else p.val
    split
    · have := p.isLt; omega
    · rfl

end Cert.Views

end
-- ==== Proof.HostSide.lean ====
/-
  What the kernel's region finds in its ten operand arrays.

  Before the region the program gathers rows of the two tables at the three row-index inputs and entries of the
  update-time vector at the fourth, each in "fill" mode: a negative index is wrapped by adding the table's row count
  N, the wrapped index is tested against [0, N - 1], and where the test fails the gathered value is replaced by the
  not-a-number word.  It then casts the gathered rows and the two weight matrices to a shorter float format (the
  identity on the extended reals), subtracts the gathered update times from the timestamps, and views the four
  vectors as one-row or one-column matrices.

  Under the precondition every index lies in [-N, N), so every wrapped index lies in [0, N - 1]
  (Cert.IndexRange.wrap_mask): the test holds at every position, the fill never shows, and each gathered operand is
  the plain gather at the wrapped indices.
-/
import proofs.«420605_j55997783605364_2_alg».proof.Proof.Gen.KernelIdeal.Frame
import proofs.«420605_j55997783605364_2_alg».proof.Proof.IndexRange
import Idealize.ShloMosaic.Lib.StableHlo.Run
import Idealize.ShloMosaic.Lib.ValueIdx
import Idealize.ShloMosaic.Lib.ReduceAll

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-! ## A reduce by "and" of all ones is one -/

theorem foldl_andi_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_all_one f l _ ?_ (fun n hn => hl n (List.mem_cons_of_mem _ hn))
    show IntOp.andi init (f a) = 1#1
    rw [h, hl a List.mem_cons_self]; rfl

/-- A reduce by "and" from the initial value 1 over an array of ones is 1 at every result position. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_all_one x _ _ hinit (fun n _ => hx n)

/-! ## The wrapped index column and the in-range test -/

/-- The index vector with negative entries wrapped by adding N, as a one-column matrix. -/
abbrev wrapCol (N : BitVec 32) (x : IVec S200000 32) : IVec S200000x1 32 :=
  broadcastInDim S200000x1 ![0] bcast_S200000_S200000x1_0
    (select (cmpi .slt x (broadcastInDim S200000 ![] bcast_S_S200000 (constantI S_ 32 0#32)))
      (addi x (broadcastInDim S200000 ![] bcast_S_S200000 (constantI S_ 32 N))) x)

/-- The test 0 ≤ w ≤ hi of each wrapped index, reduced by "and" along the column's one-entry axis. -/
abbrev inRange (hi : BitVec 32) (col : IVec S200000x1 32) : IVec S200000 1 :=
  Host.reduce IntOp.andi
    (andi (cmpi .sge col (broadcastInDim S200000x1 ![] bcast_S_S200000x1 (constantI S_ 32 0#32)))
      (cmpi .sle col (broadcastInDim S200000x1 ![0, 1] bcast_S1x1_S200000x1_0_1
        (broadcastInDim S1x1 ![1] bcast_S1_S1x1_1 (constantI S1 32 hi)))))
    (constantI S_ 1 1#1) reducesTo_S200000x1_S200000_d1 h_S_

/-- With every index in [-N, N), the test holds at every position. -/
theorem inRange_one (N : ℤ) (hN : 1 ≤ N) (hN' : N < 2 ^ 30) (mN nN nN1 : BitVec 32) (hmN : mN.toInt = -N) (hnN : nN.toInt = N)
    (hnN1 : nN1.toInt = N - 1) (x : IVec S200000 32)
    (hx : ∀ i, IntOp.cmpi .sge (x i) mN = 1#1 ∧ IntOp.cmpi .slt (x i) nN = 1#1) (r : S200000.Idx) :
    inRange nN1 (wrapCol nN x) r = 1#1 := by
  refine reduce_andi_of_all _ _ _ _ r rfl fun i => ?_
  exact Cert.IndexRange.wrap_mask N hN hN' mN nN nN1 hmN hnN hnN1 (x _) (hx _).1 (hx _).2

variable (m : (ℓ : Loc nD τ sig) → Buf (Elt Ideal) ℓ)

/-- The timestamps and the update-time table as launched. -/
abbrev stamps (c : Dev nD) : FVec Ideal S200000 .f32 := m ((c : Thread nD τ).loc main_arg2)
abbrev updTimes (c : Dev nD) : FVec Ideal S1000000 .f32 := m ((c : Thread nD τ).loc main_arg6)

/-! ## The gathered operands -/

set_option maxRecDepth 100000 in
set_option maxHeartbeats 4000000 in
/-- What the region finds in main_v1: the rows gathered at the wrapped indices where the wrapped index is in range, the
    not-a-number word elsewhere (a change of float format being the identity on the extended reals). -/
theorem srcRows_raw (c : Dev nD) : (V m c main_v1 : S200000x128.Idx → EReal) =
    truncf .bf16 (select (broadcastInDim S200000x128 ![0] bcast_S200000_S200000x128_0 (inRange 999999#32 (wrapCol 1000000#32 (m ((c : Thread nD τ).loc main_arg0)))))
      (Host.gather gather_S1000000x128_S200000x1_S200000x128_1_0_n_n_0_1_1128 (m ((c : Thread nD τ).loc main_arg5)) (wrapCol 1000000#32 (m ((c : Thread nD τ).loc main_arg0))))
      (broadcastInDim S200000x128 ![] bcast_S_S200000x128 (constant (F := Ideal) S_ .f32 0x7FC00000#32))) bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp
  try simp only [cast_eq]
  try rfl

set_option maxRecDepth 100000 in
set_option maxHeartbeats 4000000 in
/-- What the region finds in main_v3: the rows gathered at the wrapped indices where the wrapped index is in range, the
    not-a-number word elsewhere (a change of float format being the identity on the extended reals). -/
theorem dstRows_raw (c : Dev nD) : (V m c main_v3 : S200000x128.Idx → EReal) =
    truncf .bf16 (select (broadcastInDim S200000x128 ![0] bcast_S200000_S200000x128_0 (inRange 999999#32 (wrapCol 1000000#32 (m ((c : Thread nD τ).loc main_arg1)))))
      (Host.gather gather_S1000000x128_S200000x1_S200000x128_1_0_n_n_0_1_1128 (m ((c : Thread nD τ).loc main_arg5)) (wrapCol 1000000#32 (m ((c : Thread nD τ).loc main_arg1))))
      (broadcastInDim S200000x128 ![] bcast_S_S200000x128 (constant (F := Ideal) S_ .f32 0x7FC00000#32))) bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp
  try simp only [cast_eq]
  try rfl

set_option maxRecDepth 100000 in
set_option maxHeartbeats 4000000 in
/-- What the region finds in main_v8: the rows gathered at the wrapped indices where the wrapped index is in range, the
    not-a-number word elsewhere (a change of float format being the identity on the extended reals). -/
theorem featRows_raw (c : Dev nD) : (V m c main_v8 : S200000x128.Idx → EReal) =
    truncf .bf16 (select (broadcastInDim S200000x128 ![0] bcast_S200000_S200000x128_0 (inRange 499999#32 (wrapCol 500000#32 (m ((c : Thread nD τ).loc main_arg3)))))
      (Host.gather gather_S500000x128_S200000x1_S200000x128_1_0_n_n_0_1_1128 (m ((c : Thread nD τ).loc main_arg7)) (wrapCol 500000#32 (m ((c : Thread nD τ).loc main_arg3))))
      (broadcastInDim S200000x128 ![] bcast_S_S200000x128 (constant (F := Ideal) S_ .f32 0x7FC00000#32))) bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp
  try simp only [cast_eq]
  try rfl

set_option maxRecDepth 100000 in
set_option maxHeartbeats 4000000 in
/-- What the region finds in main_v6: the timestamps minus the update times gathered in fill mode, as one column. -/
theorem dtCol_raw (c : Dev nD) : (V m c main_v6 : S200000x1.Idx → EReal) =
    shapeCast S200000x1 (subf (stamps m c)
      (select (inRange 999999#32 (wrapCol 1000000#32 (m ((c : Thread nD τ).loc main_arg4))))
        (Host.gather gather_S1000000_S200000x1_S200000_n_0_n_n_0_1_1 (updTimes m c) (wrapCol 1000000#32 (m ((c : Thread nD τ).loc main_arg4))))
        (broadcastInDim S200000 ![] bcast_S_S200000 (constant (F := Ideal) S_ .f32 0x7FC00000#32)))) shapeCasts_S200000_S200000x1 := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp
  try simp only [cast_eq]
  try rfl

/-- With every index in range the fill never shows: main_v1 is the gathered rows. -/
theorem srcRows (c : Dev nD)
    (h : ∀ i, IntOp.cmpi .sge ((m ((c : Thread nD τ).loc main_arg0)) i) 4293967296#32 = 1#1 ∧ IntOp.cmpi .slt ((m ((c : Thread nD τ).loc main_arg0)) i) 1000000#32 = 1#1) :
    (V m c main_v1 : S200000x128.Idx → EReal) = Host.gather gather_S1000000x128_S200000x1_S200000x128_1_0_n_n_0_1_1128 (m ((c : Thread nD τ).loc main_arg5)) (wrapCol 1000000#32 (m ((c : Thread nD τ).loc main_arg0))) := by
  rw [srcRows_raw]
  have hm : ∀ i, broadcastInDim S200000x128 ![0] bcast_S200000_S200000x128_0 (inRange 999999#32 (wrapCol 1000000#32 (m ((c : Thread nD τ).loc main_arg0)))) i = 1#1 :=
    fun i => inRange_one 1000000 (by norm_num) (by norm_num) 4293967296#32 1000000#32 999999#32 (by decide) (by decide) (by decide) _ h _
  funext i
  rw [truncf_apply, select_apply, hm i, select_one]

/-- With every index in range the fill never shows: main_v3 is the gathered rows. -/
theorem dstRows (c : Dev nD)
    (h : ∀ i, IntOp.cmpi .sge ((m ((c : Thread nD τ).loc main_arg1)) i) 4293967296#32 = 1#1 ∧ IntOp.cmpi .slt ((m ((c : Thread nD τ).loc main_arg1)) i) 1000000#32 = 1#1) :
    (V m c main_v3 : S200000x128.Idx → EReal) = Host.gather gather_S1000000x128_S200000x1_S200000x128_1_0_n_n_0_1_1128 (m ((c : Thread nD τ).loc main_arg5)) (wrapCol 1000000#32 (m ((c : Thread nD τ).loc main_arg1))) := by
  rw [dstRows_raw]
  have hm : ∀ i, broadcastInDim S200000x128 ![0] bcast_S200000_S200000x128_0 (inRange 999999#32 (wrapCol 1000000#32 (m ((c : Thread nD τ).loc main_arg1)))) i = 1#1 :=
    fun i => inRange_one 1000000 (by norm_num) (by norm_num) 4293967296#32 1000000#32 999999#32 (by decide) (by decide) (by decide) _ h _
  funext i
  rw [truncf_apply, select_apply, hm i, select_one]

/-- With every index in range the fill never shows: main_v8 is the gathered rows. -/
theorem featRows (c : Dev nD)
    (h : ∀ i, IntOp.cmpi .sge ((m ((c : Thread nD τ).loc main_arg3)) i) 4294467296#32 = 1#1 ∧ IntOp.cmpi .slt ((m ((c : Thread nD τ).loc main_arg3)) i) 500000#32 = 1#1) :
    (V m c main_v8 : S200000x128.Idx → EReal) = Host.gather gather_S500000x128_S200000x1_S200000x128_1_0_n_n_0_1_1128 (m ((c : Thread nD τ).loc main_arg7)) (wrapCol 500000#32 (m ((c : Thread nD τ).loc main_arg3))) := by
  rw [featRows_raw]
  have hm : ∀ i, broadcastInDim S200000x128 ![0] bcast_S200000_S200000x128_0 (inRange 499999#32 (wrapCol 500000#32 (m ((c : Thread nD τ).loc main_arg3)))) i = 1#1 :=
    fun i => inRange_one 500000 (by norm_num) (by norm_num) 4294467296#32 500000#32 499999#32 (by decide) (by decide) (by decide) _ h _
  funext i
  rw [truncf_apply, select_apply, hm i, select_one]

/-- With every index in range, main_v6 is the timestamps minus the gathered update times, as one column. -/
theorem dtCol (c : Dev nD)
    (h : ∀ i, IntOp.cmpi .sge ((m ((c : Thread nD τ).loc main_arg4)) i) 4293967296#32 = 1#1 ∧ IntOp.cmpi .slt ((m ((c : Thread nD τ).loc main_arg4)) i) 1000000#32 = 1#1) :
    (V m c main_v6 : S200000x1.Idx → EReal) =
      shapeCast S200000x1 (subf (stamps m c) (Host.gather gather_S1000000_S200000x1_S200000_n_0_n_n_0_1_1 (updTimes m c) (wrapCol 1000000#32 (m ((c : Thread nD τ).loc main_arg4)))))
        shapeCasts_S200000_S200000x1 := by
  rw [dtCol_raw]
  have hs : select (inRange 999999#32 (wrapCol 1000000#32 (m ((c : Thread nD τ).loc main_arg4))))
        (Host.gather gather_S1000000_S200000x1_S200000_n_0_n_n_0_1_1 (updTimes m c) (wrapCol 1000000#32 (m ((c : Thread nD τ).loc main_arg4))))
        (broadcastInDim S200000 ![] bcast_S_S200000 (constant (F := Ideal) S_ .f32 0x7FC00000#32))
      = Host.gather gather_S1000000_S200000x1_S200000_n_0_n_n_0_1_1 (updTimes m c) (wrapCol 1000000#32 (m ((c : Thread nD τ).loc main_arg4))) := by
    funext i
    rw [select_apply, inRange_one 1000000 (by norm_num) (by norm_num) 4293967296#32 1000000#32 999999#32 (by decide) (by decide) (by decide) _ h i,
      select_one]
  rw [hs]

/-! ## The operands that are views or casts of an argument -/

set_option maxRecDepth 100000 in
set_option maxHeartbeats 4000000 in
theorem freqRow (c : Dev nD) : (V m c main_v9 : S1x128.Idx → EReal) = shapeCast S1x128 (m ((c : Thread nD τ).loc main_arg8)) shapeCasts_S128_S1x128 := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp <;> rfl
set_option maxRecDepth 100000 in
set_option maxHeartbeats 4000000 in
theorem phaseRow (c : Dev nD) : (V m c main_v10 : S1x128.Idx → EReal) = shapeCast S1x128 (m ((c : Thread nD τ).loc main_arg9)) shapeCasts_S128_S1x128 := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp <;> rfl
set_option maxRecDepth 100000 in
set_option maxHeartbeats 4000000 in
theorem bias1Row (c : Dev nD) : (V m c main_v11 : S1x512.Idx → EReal) = shapeCast S1x512 (m ((c : Thread nD τ).loc main_arg11)) shapeCasts_S512_S1x512 := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp <;> rfl
set_option maxRecDepth 100000 in
set_option maxHeartbeats 4000000 in
theorem bias2Row (c : Dev nD) : (V m c main_v12 : S1x256.Idx → EReal) = shapeCast S1x256 (m ((c : Thread nD τ).loc main_arg13)) shapeCasts_S256_S1x256 := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp <;> rfl
set_option maxRecDepth 100000 in
set_option maxHeartbeats 4000000 in
theorem weight1 (c : Dev nD) : (V m c main_v13 : S512x512.Idx → EReal) = (m ((c : Thread nD τ).loc main_arg10)) := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp <;> rfl
set_option maxRecDepth 100000 in
set_option maxHeartbeats 4000000 in
theorem weight2 (c : Dev nD) : (V m c main_v14 : S512x256.Idx → EReal) = (m ((c : Thread nD τ).loc main_arg12)) := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp <;> rfl

end Cert.KernelIdeal.HostSide

end
-- ==== Proof.BodyValue.lean ====
/-
  What the kernel body leaves in its output block, read at one entry.

  The body computes, for its 2000 rows at once, the time encoding cos (dt · freq + phase), four matrix products of
  128-column pieces (source rows, destination rows, the time encoding, feature rows) against the four 128-row
  slices of the first weight matrix, their sum plus the first bias, the maximum with zero, a second matrix product
  and the second bias.  On the extended reals a matrix product into a zero accumulator is the plain sum of
  products over the contracted axis, and a change of float format is the identity; so entry (p, q) of the block is
  the row function of Cert.RowMlp applied to row p of each operand block.
-/
import proofs.«420605_j55997783605364_2_alg».proof.Proof.Gen.KernelIdeal.Frame
import proofs.«420605_j55997783605364_2_alg».proof.Proof.RowMlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.RowMlp

/-! ## A column broadcast along the second axis -/

/-- An [a, 1] column broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an entry: sums of products over the contracted axis -/

theorem lhsA_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem lhsA_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem rhsA_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem rhsA_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- A [2000, 128] × [128, 512] product into a zero accumulator, at entry (p, j). -/
theorem matmulA_apply (l : FVec Ideal S2000x128 .bf16) (r : FVec Ideal S128x512 .bf16) (p : Fin 2000) (j : Fin 512) :
    matmul dot_S2000x128_S128x512_S2000x512_1_0_0_1_n_n none l r (constant (F := Ideal) S2000x512 .f32 0x00000000#32) (ix2 p j)
      = ∑ k : Fin 128, l (ix2 p k) * r (ix2 k j) := by
  show FloatOps.matmul dot_S2000x128_S128x512_S2000x512_1_0_0_1_n_n none l r (constant (F := Ideal) S2000x512 .f32 0x00000000#32) (ix2 p j) = _
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p j) ((contrEquiv1 dot_S2000x128_S128x512_S2000x512_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x512_S2000x512_1_0_0_1_n_n.rhsIdx (ix2 p j) ((contrEquiv1 dot_S2000x128_S128x512_S2000x512_1_0_0_1_n_n 128 rfl rfl).symm k) = ix2 k j := funext fun a => Fin.ext (by
    match a with
    | ⟨0, _⟩ => exact (rhsA_0 _ _).trans hk
    | ⟨1, _⟩ => exact rhsA_1 _ _)
  rw [el, er]

theorem lhsB_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhsB_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhsB_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhsB_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- A [2000, 512] × [512, 256] product into a zero accumulator, at entry (p, q). -/
theorem matmulB_apply (l : FVec Ideal S2000x512 .bf16) (r : FVec Ideal S512x256 .bf16) (p : Fin 2000) (q : Fin 256) :
    matmul dot_S2000x512_S512x256_S2000x256_1_0_0_1_n_n none l r (constant (F := Ideal) S2000x256 .f32 0x00000000#32) (ix2 p q)
      = ∑ k : Fin 512, l (ix2 p k) * r (ix2 k q) := by
  show FloatOps.matmul dot_S2000x512_S512x256_S2000x256_1_0_0_1_n_n none l r (constant (F := Ideal) S2000x256 .f32 0x00000000#32) (ix2 p q) = _
  rw [Ideal.matmul_constant_zero_apply, ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q) ((contrEquiv1 dot_S2000x512_S512x256_S2000x256_1_0_0_1_n_n 512 rfl rfl).symm k) = ix2 p k := funext fun a => Fin.ext (by
    match a with
    | ⟨0, _⟩ => exact lhsB_0 _ _
    | ⟨1, _⟩ => exact (lhsB_1 _ _).trans hk)
  have er : dot_S2000x512_S512x256_S2000x256_1_0_0_1_n_n.rhsIdx (ix2 p q) ((contrEquiv1 dot_S2000x512_S512x256_S2000x256_1_0_0_1_n_n 512 rfl rfl).symm k) = ix2 k q := funext fun a => Fin.ext (by
    match a with
    | ⟨0, _⟩ => exact (rhsB_0 _ _).trans hk
    | ⟨1, _⟩ => exact rhsB_1 _ _)
  rw [el, er]

/-! ## The two payloads at an entry -/

/-- The first layer's pre-activation at (p, j): the four partial products, added left to right. -/
theorem pay2_apply (v0 : FVec Ideal S2000x1 .f32) (v2 v4 : FVec Ideal S1x128 .f32) (v13 v15 v17 v19 : FVec Ideal S128x512 .bf16)
    (v21 v24 v30 : FVec Ideal S2000x128 .bf16) (p : Fin 2000) (j : Fin 512) :
    k0_pay2 (F := Ideal) v0 v2 v4 v13 v15 v17 v19 v21 v24 v30 (ix2 p j)
      = ((∑ k : Fin 128, v21 (ix2 p k) * v13 (ix2 k j) + ∑ k : Fin 128, v24 (ix2 p k) * v15 (ix2 k j))
          + ∑ k : Fin 128, timeEnc (v0 (ix2 p (0 : Fin 1))) (fun k => v2 (ix2 (0 : Fin 1) k)) (fun k => v4 (ix2 (0 : Fin 1) k)) k * v17 (ix2 k j))
        + ∑ k : Fin 128, v30 (ix2 p k) * v19 (ix2 k j) := by
  unfold k0_pay2
  simp only [shapeCast_self, addf_apply]
  rw [matmulA_apply, matmulA_apply, matmulA_apply, matmulA_apply]
  congr 2
  refine Finset.sum_congr rfl fun k _ => ?_
  congr 1
  show Ideal.cos (broadcastTo S2000x128 v0 _ (ix2 p k) * broadcastTo S2000x128 v2 _ (ix2 p k) + broadcastTo S2000x128 v4 _ (ix2 p k)) = _
  rw [broadcastTo_a1_ab_apply, broadcastTo_1b_ab_apply, broadcastTo_1b_ab_apply]
  rfl

/-- The second layer at (p, q) over a pre-activation block v33. -/
theorem pay1_apply (v33 : FVec Ideal S2000x512 .f32) (v34 : FVec Ideal S1x512 .f32) (v41 : FVec Ideal S512x256 .bf16)
    (v44 : FVec Ideal S1x256 .f32) (p : Fin 2000) (q : Fin 256) :
    k0_pay1 (F := Ideal) v33 v34 v41 v44 (ix2 p q)
      = (∑ k : Fin 512, max (v33 (ix2 p k) + v34 (ix2 (0 : Fin 1) k)) 0 * v41 (ix2 k q)) + v44 (ix2 (0 : Fin 1) q) := by
  unfold k0_pay1
  simp only [shapeCast_self, addf_apply]
  rw [matmulB_apply, broadcastTo_1b_ab_apply]
  congr 1
  refine Finset.sum_congr rfl fun k _ => ?_
  congr 1
  show max (v33 (ix2 p k) + broadcastTo S2000x512 v34 _ (ix2 p k)) (Ideal.ofBits .f32 0x00000000#32) = _
  rw [broadcastTo_1b_ab_apply, Ideal.ofBits_zero_f32]

end Cert.KernelIdeal.BodyValue

end
-- ==== Proof.BlockReads.lean ====
/-
  Each window's block at a grid point, read off its array, and the output block at an entry.

  The grid has 100 points.  At point t the four row windows (source rows, destination rows, time-difference column,
  feature rows) hold rows t · 2000 … t · 2000 + 1999 of their arrays, and the six other windows hold their whole
  arrays at every point: a block's element (y0, y1) sits at (block index × block size + y) of the array, and the block
  indices are (t, 0) and (0, 0), decided over the grid.  The body's loads of the first weight block at row offsets
  0, 128, 256, 384 read its four 128-row slices; with the two payload lemmas of Cert.KernelIdeal.BodyValue, entry
  (p, q) of the output block is the row function of row p of the operand blocks.
-/
import proofs.«420605_j55997783605364_2_alg».proof.Proof.Gen.KernelIdeal.Value
import proofs.«420605_j55997783605364_2_alg».proof.Proof.BodyValue
import proofs.«420605_j55997783605364_2_alg».proof.Proof.ArraySpec
import Idealize.ShloMosaic.Lib.Pipeline.Value

set_option maxRecDepth 16384
set_option Elab.async false

noncomputable section

namespace Cert.KernelIdeal.BlockReads

open Cert.KernelIdeal Cert.KernelIdeal.Gen Idealize.ShloMosaic Idealize.ShloMosaic.TcCoe Idealize.SL.Sem
open Idealize.ShloMosaic.ValueIdx Cert.RowMlp
open Idealize.ShloMosaic.Pipeline (Dat)

theorem hz : (![0, 0] : Fin 2 → Nat) = fun _ => 0 := funext fun a => by fin_cases a <;> rfl

/-! ## The output block at an entry -/

/-- A load of 128 rows of the first weight block starting at row o reads, at (k, j), the block at (o + k, j). -/
theorem ld_rows (o : Nat) (inb : ∀ a, (![o, 0] : Fin 2 → Nat) a + S128x512.size a ≤ S512x512.size a)
    (x6 : Vec Ideal S512x512 .bf16) (k : Fin 128) (j : Fin 512) (K : Fin 512) (hK : K.val = o + k.val) :
    View.ld (Val := Elt Ideal) (e' := .bf16) x6 (Rect.unit (s := S512x512) ![o, 0] S128x512.size inb) (ix2 k j) = x6 (ix2 K j) := by
  show x6 ((Rect.unit (s := S512x512) ![o, 0] S128x512.size inb).emb (ix2 k j)) = x6 (ix2 K j)
  refine congrArg x6 (funext fun a => Fin.ext ?_)
  match a with
  | ⟨0, _⟩ => show o + 1 * k.val = K.val; omega
  | ⟨1, _⟩ => show 0 + 1 * j.val = j.val; omega

theorem ldW0 (x6 : Vec Ideal S512x512 .bf16) (k : Fin 128) (j : Fin 512) : View.ld (Val := Elt Ideal) (e' := .bf16) x6 r0_2 (ix2 k j) = x6 (ix2 (c0 k) j) :=
  ld_rows 0 _ x6 k j (c0 k) (by show k.val = 0 + k.val; omega)
theorem ldW1 (x6 : Vec Ideal S512x512 .bf16) (k : Fin 128) (j : Fin 512) : View.ld (Val := Elt Ideal) (e' := .bf16) x6 r0_3 (ix2 k j) = x6 (ix2 (c1 k) j) :=
  ld_rows 128 _ x6 k j (c1 k) rfl
theorem ldW2 (x6 : Vec Ideal S512x512 .bf16) (k : Fin 128) (j : Fin 512) : View.ld (Val := Elt Ideal) (e' := .bf16) x6 r0_4 (ix2 k j) = x6 (ix2 (c2 k) j) :=
  ld_rows 256 _ x6 k j (c2 k) rfl
theorem ldW3 (x6 : Vec Ideal S512x512 .bf16) (k : Fin 128) (j : Fin 512) : View.ld (Val := Elt Ideal) (e' := .bf16) x6 r0_5 (ix2 k j) = x6 (ix2 (c3 k) j) :=
  ld_rows 384 _ x6 k j (c3 k) rfl

/-- The four partial products over the four loaded slices are the piecewise first layer over the whole weight block. -/
theorem hidden_of_slices (x0 x1 x3 : FVec Ideal S2000x128 .bf16) (x2 : FVec Ideal S2000x1 .f32) (x4 x5 : FVec Ideal S1x128 .f32)
    (x6 : Vec Ideal S512x512 .bf16) (p : Fin 2000) (j : Fin 512) :
    ((∑ k : Fin 128, x0 (ix2 p k) * View.ld (Val := Elt Ideal) (e' := .bf16) x6 r0_2 (ix2 k j) + ∑ k : Fin 128, x1 (ix2 p k) * View.ld (Val := Elt Ideal) (e' := .bf16) x6 r0_3 (ix2 k j))
        + ∑ k : Fin 128, timeEnc (x2 (ix2 p (0 : Fin 1))) (fun k => x4 (ix2 (0 : Fin 1) k)) (fun k => x5 (ix2 (0 : Fin 1) k)) k
            * View.ld (Val := Elt Ideal) (e' := .bf16) x6 r0_4 (ix2 k j))
      + ∑ k : Fin 128, x3 (ix2 p k) * View.ld (Val := Elt Ideal) (e' := .bf16) x6 r0_5 (ix2 k j)
    = RowMlp.hidden (fun k => x0 (ix2 p k)) (fun k => x1 (ix2 p k)) (fun k => x3 (ix2 p k)) (x2 (ix2 p (0 : Fin 1)))
        (fun k => x4 (ix2 (0 : Fin 1) k)) (fun k => x5 (ix2 (0 : Fin 1) k)) (fun a b => x6 (ix2 a b)) j := by
  have s0 : (∑ k : Fin 128, x0 (ix2 p k) * View.ld (Val := Elt Ideal) (e' := .bf16) x6 r0_2 (ix2 k j)) = ∑ k : Fin 128, x0 (ix2 p k) * x6 (ix2 (c0 k) j) :=
    Finset.sum_congr rfl fun k _ => by rw [ldW0]
  have s1 : (∑ k : Fin 128, x1 (ix2 p k) * View.ld (Val := Elt Ideal) (e' := .bf16) x6 r0_3 (ix2 k j)) = ∑ k : Fin 128, x1 (ix2 p k) * x6 (ix2 (c1 k) j) :=
    Finset.sum_congr rfl fun k _ => by rw [ldW1]
  have s2 : (∑ k : Fin 128, timeEnc (x2 (ix2 p (0 : Fin 1))) (fun k => x4 (ix2 (0 : Fin 1) k)) (fun k => x5 (ix2 (0 : Fin 1) k)) k
        * View.ld (Val := Elt Ideal) (e' := .bf16) x6 r0_4 (ix2 k j))
      = ∑ k : Fin 128, timeEnc (x2 (ix2 p (0 : Fin 1))) (fun k => x4 (ix2 (0 : Fin 1) k)) (fun k => x5 (ix2 (0 : Fin 1) k)) k
        * x6 (ix2 (c2 k) j) :=
    Finset.sum_congr rfl fun k _ => by rw [ldW2]
  have s3 : (∑ k : Fin 128, x3 (ix2 p k) * View.ld (Val := Elt Ideal) (e' := .bf16) x6 r0_5 (ix2 k j)) = ∑ k : Fin 128, x3 (ix2 p k) * x6 (ix2 (c3 k) j) :=
    Finset.sum_congr rfl fun k _ => by rw [ldW3]
  rw [s0, s1, s2, s3]
  rfl

/-- Entry (p, q) of what the body leaves in the output block is the row function of row p of the operand blocks. -/
theorem out_block_apply (x0 x1 : FVec Ideal S2000x128 .bf16) (x2 : FVec Ideal S2000x1 .f32) (x3 : FVec Ideal S2000x128 .bf16)
    (x4 x5 : FVec Ideal S1x128 .f32) (x6 : FVec Ideal S512x512 .bf16) (x7 : FVec Ideal S1x512 .f32)
    (x8 : FVec Ideal S512x256 .bf16) (x9 : FVec Ideal S1x256 .f32) (p : Fin 2000) (q : Fin 256) :
    out0_10 (F := Ideal) x0 x1 x2 x3 x4 x5 x6 x7 x8 x9 (ix2 p q)
      = out (hidden (fun k => x0 (ix2 p k)) (fun k => x1 (ix2 p k)) (fun k => x3 (ix2 p k)) (x2 (ix2 p (0 : Fin 1)))
          (fun k => x4 (ix2 (0 : Fin 1) k)) (fun k => x5 (ix2 (0 : Fin 1) k)) (fun a b => x6 (ix2 a b)))
        (fun k => x7 (ix2 (0 : Fin 1) k)) (fun a b => x8 (ix2 a b)) (fun k => x9 (ix2 (0 : Fin 1) k)) q := by
  unfold out0_10
  rw [View.canon_unit_zero hz]
  simp only [View.ld_unit_zero (S := S2000x1) hz, View.ld_unit_zero (S := S1x128) hz, View.ld_unit_zero (S := S2000x128) hz,
    View.ld_unit_zero (S := S1x512) hz, View.ld_unit_zero (S := S512x256) hz, View.ld_unit_zero (S := S1x256) hz]
  rw [BodyValue.pay1_apply]
  unfold out
  congr 1
  refine Finset.sum_congr rfl fun k _ => ?_
  rw [BodyValue.pay2_apply]
  exact congrArg (fun h => max (h + x7 (ix2 (0 : Fin 1) k)) 0 * x8 (ix2 k q)) (hidden_of_slices x0 x1 x3 x2 x4 x5 x6 p k)

variable (m : (ℓ : Loc nD τ sig) → Buf (Elt Ideal) ℓ) (ρ : Dev nD → PrngReg)

/-! ## The index maps, decided over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-! ## Each window's block at a point, read off its array -/

/-- Row p of window 0's block at point t is row t · 2000 + p of its array. -/
theorem read0 (c : Dev nD) (t : Fin cfg0.N) (p : Fin 2000) (k : Fin 128) (P : Fin 200000) (hP : P.val = t.val * 2000 + p.val) :
    iblk m c 0 t (ix2 p k) = V m c main_v1 (ix2 P k) := by
  show V m c main_v1 (((cfg0.win 0).blk t).view.emb (ix2 p k)) = V m c main_v1 (ix2 P k)
  refine congrArg (V m c main_v1) (funext fun a => Fin.ext ?_)
  obtain ⟨e0, e1⟩ := idx0 t
  match a with
  | ⟨0, _⟩ => show win0_0.index t (0 : Fin 2) * 2000 + 1 * p.val = P.val; omega
  | ⟨1, _⟩ => show win0_0.index t (1 : Fin 2) * 128 + 1 * k.val = k.val; omega

/-- Row p of window 1's block at point t is row t · 2000 + p of its array. -/
theorem read1 (c : Dev nD) (t : Fin cfg0.N) (p : Fin 2000) (k : Fin 128) (P : Fin 200000) (hP : P.val = t.val * 2000 + p.val) :
    iblk m c 1 t (ix2 p k) = V m c main_v3 (ix2 P k) := by
  show V m c main_v3 (((cfg0.win 1).blk t).view.emb (ix2 p k)) = V m c main_v3 (ix2 P k)
  refine congrArg (V m c main_v3) (funext fun a => Fin.ext ?_)
  obtain ⟨e0, e1⟩ := idx1 t
  match a with
  | ⟨0, _⟩ => show win0_1.index t (0 : Fin 2) * 2000 + 1 * p.val = P.val; omega
  | ⟨1, _⟩ => show win0_1.index t (1 : Fin 2) * 128 + 1 * k.val = k.val; omega

/-- Row p of window 2's block at point t is row t · 2000 + p of its array. -/
theorem read2 (c : Dev nD) (t : Fin cfg0.N) (p : Fin 2000) (k : Fin 1) (P : Fin 200000) (hP : P.val = t.val * 2000 + p.val) :
    iblk m c 2 t (ix2 p k) = V m c main_v6 (ix2 P k) := by
  show V m c main_v6 (((cfg0.win 2).blk t).view.emb (ix2 p k)) = V m c main_v6 (ix2 P k)
  refine congrArg (V m c main_v6) (funext fun a => Fin.ext ?_)
  obtain ⟨e0, e1⟩ := idx2 t
  match a with
  | ⟨0, _⟩ => show win0_2.index t (0 : Fin 2) * 2000 + 1 * p.val = P.val; omega
  | ⟨1, _⟩ => show win0_2.index t (1 : Fin 2) * 1 + 1 * k.val = k.val; omega

/-- Row p of window 3's block at point t is row t · 2000 + p of its array. -/
theorem read3 (c : Dev nD) (t : Fin cfg0.N) (p : Fin 2000) (k : Fin 128) (P : Fin 200000) (hP : P.val = t.val * 2000 + p.val) :
    iblk m c 3 t (ix2 p k) = V m c main_v8 (ix2 P k) := by
  show V m c main_v8 (((cfg0.win 3).blk t).view.emb (ix2 p k)) = V m c main_v8 (ix2 P k)
  refine congrArg (V m c main_v8) (funext fun a => Fin.ext ?_)
  obtain ⟨e0, e1⟩ := idx3 t
  match a with
  | ⟨0, _⟩ => show win0_3.index t (0 : Fin 2) * 2000 + 1 * p.val = P.val; omega
  | ⟨1, _⟩ => show win0_3.index t (1 : Fin 2) * 128 + 1 * k.val = k.val; omega

/-- Window 4's block is its whole array at every point. -/
theorem read4 (c : Dev nD) (t : Fin cfg0.N) (a : Fin 1) (b : Fin 128) :
    iblk m c 4 t (ix2 a b) = V m c main_v9 (ix2 a b) := by
  show V m c main_v9 (((cfg0.win 4).blk t).view.emb (ix2 a b)) = V m c main_v9 (ix2 a b)
  refine congrArg (V m c main_v9) (funext fun ax => Fin.ext ?_)
  obtain ⟨e0, e1⟩ := idx4 t
  match ax with
  | ⟨0, _⟩ => show win0_4.index t (0 : Fin 2) * 1 + 1 * a.val = a.val; omega
  | ⟨1, _⟩ => show win0_4.index t (1 : Fin 2) * 128 + 1 * b.val = b.val; omega

/-- Window 5's block is its whole array at every point. -/
theorem read5 (c : Dev nD) (t : Fin cfg0.N) (a : Fin 1) (b : Fin 128) :
    iblk m c 5 t (ix2 a b) = V m c main_v10 (ix2 a b) := by
  show V m c main_v10 (((cfg0.win 5).blk t).view.emb (ix2 a b)) = V m c main_v10 (ix2 a b)
  refine congrArg (V m c main_v10) (funext fun ax => Fin.ext ?_)
  obtain ⟨e0, e1⟩ := idx5 t
  match ax with
  | ⟨0, _⟩ => show win0_5.index t (0 : Fin 2) * 1 + 1 * a.val = a.val; omega
  | ⟨1, _⟩ => show win0_5.index t (1 : Fin 2) * 128 + 1 * b.val = b.val; omega

/-- Window 6's block is its whole array at every point. -/
theorem read6 (c : Dev nD) (t : Fin cfg0.N) (a : Fin 512) (b : Fin 512) :
    iblk m c 6 t (ix2 a b) = V m c main_v13 (ix2 a b) := by
  show V m c main_v13 (((cfg0.win 6).blk t).view.emb (ix2 a b)) = V m c main_v13 (ix2 a b)
  refine congrArg (V m c main_v13) (funext fun ax => Fin.ext ?_)
  obtain ⟨e0, e1⟩ := idx6 t
  match ax with
  | ⟨0, _⟩ => show win0_6.index t (0 : Fin 2) * 512 + 1 * a.val = a.val; omega
  | ⟨1, _⟩ => show win0_6.index t (1 : Fin 2) * 512 + 1 * b.val = b.val; omega

/-- Window 7's block is its whole array at every point. -/
theorem read7 (c : Dev nD) (t : Fin cfg0.N) (a : Fin 1) (b : Fin 512) :
    iblk m c 7 t (ix2 a b) = V m c main_v11 (ix2 a b) := by
  show V m c main_v11 (((cfg0.win 7).blk t).view.emb (ix2 a b)) = V m c main_v11 (ix2 a b)
  refine congrArg (V m c main_v11) (funext fun ax => Fin.ext ?_)
  obtain ⟨e0, e1⟩ := idx7 t
  match ax with
  | ⟨0, _⟩ => show win0_7.index t (0 : Fin 2) * 1 + 1 * a.val = a.val; omega
  | ⟨1, _⟩ => show win0_7.index t (1 : Fin 2) * 512 + 1 * b.val = b.val; omega

/-- Window 8's block is its whole array at every point. -/
theorem read8 (c : Dev nD) (t : Fin cfg0.N) (a : Fin 512) (b : Fin 256) :
    iblk m c 8 t (ix2 a b) = V m c main_v14 (ix2 a b) := by
  show V m c main_v14 (((cfg0.win 8).blk t).view.emb (ix2 a b)) = V m c main_v14 (ix2 a b)
  refine congrArg (V m c main_v14) (funext fun ax => Fin.ext ?_)
  obtain ⟨e0, e1⟩ := idx8 t
  match ax with
  | ⟨0, _⟩ => show win0_8.index t (0 : Fin 2) * 512 + 1 * a.val = a.val; omega
  | ⟨1, _⟩ => show win0_8.index t (1 : Fin 2) * 256 + 1 * b.val = b.val; omega

/-- Window 9's block is its whole array at every point. -/
theorem read9 (c : Dev nD) (t : Fin cfg0.N) (a : Fin 1) (b : Fin 256) :
    iblk m c 9 t (ix2 a b) = V m c main_v12 (ix2 a b) := by
  show V m c main_v12 (((cfg0.win 9).blk t).view.emb (ix2 a b)) = V m c main_v12 (ix2 a b)
  refine congrArg (V m c main_v12) (funext fun ax => Fin.ext ?_)
  obtain ⟨e0, e1⟩ := idx9 t
  match ax with
  | ⟨0, _⟩ => show win0_9.index t (0 : Fin 2) * 1 + 1 * a.val = a.val; omega
  | ⟨1, _⟩ => show win0_9.index t (1 : Fin 2) * 256 + 1 * b.val = b.val; omega

end Cert.KernelIdeal.BlockReads

end
-- ==== Proof.ArrayValue.lean ====
/-
  From the blocks to the whole array: the kernel's run with its result named.

  What grid point t writes back is block t of ONE function of the ten operand arrays (Cert.ArraySpec.Garr): entry
  (p, q) of the output block is the row function of row p of the operand blocks (Cert.KernelIdeal.BlockReads), and
  row p of a row window's block is row t · 2000 + p of its array.  The output's 100 blocks of 2000 rows cover the
  200000 rows of the result, so the result array ends holding that function.
-/
import proofs.«420605_j55997783605364_2_alg».proof.Proof.Gen.KernelIdeal.Value
import proofs.«420605_j55997783605364_2_alg».proof.Proof.BlockReads
import proofs.«420605_j55997783605364_2_alg».proof.Proof.ArraySpec
import Idealize.ShloMosaic.Lib.Pipeline.Value

set_option maxRecDepth 16384
set_option Elab.async false

noncomputable section

namespace Cert.KernelIdeal.ArrayValue

open Cert.KernelIdeal Cert.KernelIdeal.Gen Idealize.ShloMosaic Idealize.ShloMosaic.TcCoe Idealize.SL.Sem
open Idealize.ShloMosaic.ValueIdx Cert.RowMlp Cert.KernelIdeal.BlockReads
open Idealize.ShloMosaic.Pipeline (Dat)

/-- The row function depends on its row data only through their values. -/
theorem out_hidden_congr {s s' d d' f f' : Fin 128 → EReal} {t t' : EReal} {fr fr' ph ph' : Fin 128 → EReal}
    {W1 W1' : Fin 512 → Fin 512 → EReal} {b1 b1' : Fin 512 → EReal} {W2 W2' : Fin 512 → Fin 256 → EReal} {b2 b2' : Fin 256 → EReal}
    (hs : s = s') (hd : d = d') (hf : f = f') (ht : t = t') (hfr : fr = fr') (hph : ph = ph') (hW1 : W1 = W1')
    (hb1 : b1 = b1') (hW2 : W2 = W2') (hb2 : b2 = b2') (q : Fin 256) :
    out (hidden s d f t fr ph W1) b1 W2 b2 q = out (hidden s' d' f' t' fr' ph' W1') b1' W2' b2' q := by
  subst hs hd hf ht hfr hph hW1 hb1 hW2 hb2; rfl

variable (m : (ℓ : Loc nD τ sig) → Buf (Elt Ideal) ℓ) (ρ : Dev nD → PrngReg)

/-- The result array as a function of what the region finds in its ten operand arrays. -/
abbrev result (c : Dev nD) : S200000x256.Idx → EReal :=
  Cert.ArraySpec.Garr (V m c main_v1) (V m c main_v3) (V m c main_v6) (V m c main_v8) (V m c main_v9) (V m c main_v10)
    (V m c main_v13) (V m c main_v11) (V m c main_v14) (V m c main_v12)

/-- What point t writes back is block t of the result function. -/
theorem flushed_eq (c : Dev nD) (t : Fin cfg0.N) :
    (dats m 0 c).flushed 10 t = ((cfg0.win 10).blk t).view.read (Elt Ideal) (result m c) := by
  rw [Value.flushed10]
  funext j
  obtain ⟨p, q, rfl⟩ : ∃ (p : Fin 2000) (q : Fin 256), j = ix2 p q := ⟨j 0, j 1, eq_ix2 j⟩
  have ht : t.val < 100 := lt_of_lt_of_eq t.isLt N_0
  obtain ⟨P, hP⟩ : ∃ P : Fin 200000, P.val = t.val * 2000 + p.val := ⟨⟨t.val * 2000 + p.val, by have := p.isLt; omega⟩, rfl⟩
  obtain ⟨e0, e1⟩ := idx10 t
  show out0_10 (iblk m c 0 t) (iblk m c 1 t) (iblk m c 2 t) (iblk m c 3 t) (iblk m c 4 t) (iblk m c 5 t) (iblk m c 6 t) (iblk m c 7 t) (iblk m c 8 t) (iblk m c 9 t) (ix2 p q)
    = result m c (((cfg0.win 10).blk t).view.emb (ix2 p q))
  refine ((out_block_apply (iblk m c 0 t) (iblk m c 1 t) (iblk m c 2 t) (iblk m c 3 t) (iblk m c 4 t) (iblk m c 5 t) (iblk m c 6 t) (iblk m c 7 t) (iblk m c 8 t) (iblk m c 9 t) p q).trans
    (out_hidden_congr
      (funext fun k => read0 m c t p k P hP) (funext fun k => read1 m c t p k P hP) (funext fun k => read3 m c t p k P hP)
      (read2 m c t p 0 P hP) (funext fun k => read4 m c t 0 k) (funext fun k => read5 m c t 0 k)
      (funext fun a => funext fun b => read6 m c t a b) (funext fun k => read7 m c t 0 k)
      (funext fun a => funext fun b => read8 m c t a b) (funext fun k => read9 m c t 0 k) q)).trans
    (Cert.ArraySpec.Garr_at (V m c main_v1) (V m c main_v3) (V m c main_v6) (V m c main_v8) (V m c main_v9) (V m c main_v10)
      (V m c main_v13) (V m c main_v11) (V m c main_v14) (V m c main_v12) (((cfg0.win 10).blk t).view.emb (ix2 p q)) P q
      (by show win0_10.index t (0 : Fin 2) * 2000 + 1 * p.val = P.val; omega)
      (by show win0_10.index t (1 : Fin 2) * 256 + 1 * q.val = q.val; omega)).symm

/-- An index of the result is in point t's block iff each coordinate is in the block's range on its axis. -/
theorem mem_blk (t : Fin cfg0.N) (i : S200000x256.Idx) :
    i ∈ ((cfg0.win 10).blk t).view.set ↔ ∀ a : Fin 2, win0_10.index t a * S2000x256.size a ≤ (i a).val
      ∧ (i a).val < win0_10.index t a * S2000x256.size a + S2000x256.size a := by
  show i ∈ ((View.whole main_v15).slice (win0_10.rect t)).set ↔ _
  rw [View.set_slice_whole, Rect.mem_set_unit]
  exact Iff.rfl

/-- Every index of the result lies in the block of the point (i 0) / 2000. -/
theorem cover (i : S200000x256.Idx) :
    ∃ t : Fin cfg0.N, (cfg0.win 10).flush t = true ∧ i ∈ ((cfg0.win 10).blk t).view.set := by
  have hi0 : (i 0).val < 200000 := (i 0).isLt
  have hi1 : (i 1).val < 256 := (i 1).isLt
  obtain ⟨t, htv⟩ : ∃ t : Fin cfg0.N, t.val = (i 0).val / 2000 :=
    ⟨⟨(i 0).val / 2000, by show (i 0).val / 2000 < grid0.N; rw [N_0]; omega⟩, rfl⟩
  refine ⟨t, flush0_10 t, ?_⟩
  rw [mem_blk]
  obtain ⟨e0, e1⟩ := idx10 t
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 256 ≤ (i 1).val ∧ (i 1).val < win0_10.index t (1 : Fin 2) * 256 + 256; omega

/-- The result array after the run is the result function. -/
theorem final (c : Dev nD) : (dats m 0 c).arrAt 10 cfg0.N = result m c :=
  (dats m 0 c).arrAt_eq_of_cover 10 (result m c) (fun t _ => flushed_eq m c t) cover

/-- The kernel's run: it terminates with the result array at the result function and the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.ArrayValue

end
-- ==== Proof.RefValue.lean ====
/-
  The reference's result as the same function of its own stages.

  The reference gathers the same rows, forms the time encoding cos (dt · freq + phase) with dt, freq and phase laid
  out as a column and two rows, joins the four 128-column pieces into one 512-column message, and applies the two
  layers whole: one 512-term product per hidden unit, the bias, the maximum with zero, the second product and bias.
  Read at an entry (P, q), the first layer's whole sum is the piecewise sum (Cert.RowMlp.whole_eq_hidden: a sum over
  512 positions is the sum of its four blocks of 128), so the reference's result is Cert.ArraySpec.Garr of its
  gathered rows, its time-difference column, its frequency, phase and bias rows and the two weight matrices.
-/
import proofs.«420605_j55997783605364_2_alg».proof.Proof.Gen.ReferenceIdeal.Read
import proofs.«420605_j55997783605364_2_alg».proof.Proof.ArraySpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.RowMlp Cert.ArraySpec

/-! ## The joined message at a column of each piece -/

theorem concat_piece0 (y0 y1 y2 y3 : S200000x128.Idx → Elt Ideal .f32) (P : Fin 200000) (k : Fin 128) :
    concatenate S200000x512 1 [⟨S200000x128, y0⟩, ⟨S200000x128, y1⟩, ⟨S200000x128, y2⟩, ⟨S200000x128, y3⟩] concatenates_S200000x128_S200000x128_S200000x128_S200000x128_S200000x512_d1
      (ix2 P (c0 k)) = y0 (ix2 P k) :=
  concatenate_apply_piece (1 : Fin S200000x512.rank) [⟨S200000x128, y0⟩, ⟨S200000x128, y1⟩, ⟨S200000x128, y2⟩, ⟨S200000x128, y3⟩] concatenates_S200000x128_S200000x128_S200000x128_S200000x128_S200000x512_d1 (ix2 P (c0 k)) 0 (by show (0 : ℕ) < 4; omega) S200000x128 y0 rfl rfl 0 rfl
    (ix2 P k) (fun b hb => by
      match b with
      | ⟨0, _⟩ => rfl
      | ⟨1, _⟩ => exact absurd rfl hb) (Nat.zero_add _)

theorem concat_piece1 (y0 y1 y2 y3 : S200000x128.Idx → Elt Ideal .f32) (P : Fin 200000) (k : Fin 128) :
    concatenate S200000x512 1 [⟨S200000x128, y0⟩, ⟨S200000x128, y1⟩, ⟨S200000x128, y2⟩, ⟨S200000x128, y3⟩] concatenates_S200000x128_S200000x128_S200000x128_S200000x128_S200000x512_d1
      (ix2 P (c1 k)) = y1 (ix2 P k) :=
  concatenate_apply_piece (1 : Fin S200000x512.rank) [⟨S200000x128, y0⟩, ⟨S200000x128, y1⟩, ⟨S200000x128, y2⟩, ⟨S200000x128, y3⟩] concatenates_S200000x128_S200000x128_S200000x128_S200000x128_S200000x512_d1 (ix2 P (c1 k)) 1 (by show (1 : ℕ) < 4; omega) S200000x128 y1 rfl rfl 128 rfl
    (ix2 P k) (fun b hb => by
      match b with
      | ⟨0, _⟩ => rfl
      | ⟨1, _⟩ => exact absurd rfl hb) rfl

theorem concat_piece2 (y0 y1 y2 y3 : S200000x128.Idx → Elt Ideal .f32) (P : Fin 200000) (k : Fin 128) :
    concatenate S200000x512 1 [⟨S200000x128, y0⟩, ⟨S200000x128, y1⟩, ⟨S200000x128, y2⟩, ⟨S200000x128, y3⟩] concatenates_S200000x128_S200000x128_S200000x128_S200000x128_S200000x512_d1
      (ix2 P (c2 k)) = y2 (ix2 P k) :=
  concatenate_apply_piece (1 : Fin S200000x512.rank) [⟨S200000x128, y0⟩, ⟨S200000x128, y1⟩, ⟨S200000x128, y2⟩, ⟨S200000x128, y3⟩] concatenates_S200000x128_S200000x128_S200000x128_S200000x128_S200000x512_d1 (ix2 P (c2 k)) 2 (by show (2 : ℕ) < 4; omega) S200000x128 y2 rfl rfl 256 rfl
    (ix2 P k) (fun b hb => by
      match b with
      | ⟨0, _⟩ => rfl
      | ⟨1, _⟩ => exact absurd rfl hb) rfl

theorem concat_piece3 (y0 y1 y2 y3 : S200000x128.Idx → Elt Ideal .f32) (P : Fin 200000) (k : Fin 128) :
    concatenate S200000x512 1 [⟨S200000x128, y0⟩, ⟨S200000x128, y1⟩, ⟨S200000x128, y2⟩, ⟨S200000x128, y3⟩] concatenates_S200000x128_S200000x128_S200000x128_S200000x128_S200000x512_d1
      (ix2 P (c3 k)) = y3 (ix2 P k) :=
  concatenate_apply_piece (1 : Fin S200000x512.rank) [⟨S200000x128, y0⟩, ⟨S200000x128, y1⟩, ⟨S200000x128, y2⟩, ⟨S200000x128, y3⟩] concatenates_S200000x128_S200000x128_S200000x128_S200000x128_S200000x512_d1 (ix2 P (c3 k)) 3 (by show (3 : ℕ) < 4; omega) S200000x128 y3 rfl rfl 384 rfl
    (ix2 P k) (fun b hb => by
      match b with
      | ⟨0, _⟩ => rfl
      | ⟨1, _⟩ => exact absurd rfl hb) rfl

/-! ## The time encoding at an entry -/

theorem timeEnc_apply (x2 : (⟨S200000, .f32⟩ : BufTy).Contents (Elt Ideal)) (x4 : (⟨S200000, .i32⟩ : BufTy).Contents (Elt Ideal)) (x6 : (⟨S1000000, .f32⟩ : BufTy).Contents (Elt Ideal)) (x8 : (⟨S128, .f32⟩ : BufTy).Contents (Elt Ideal)) (x9 : (⟨S128, .f32⟩ : BufTy).Contents (Elt Ideal)) (P : Fin 200000) (k : Fin 128) :
    val_main_v30 (F := Ideal) x2 x4 x6 x8 x9 (ix2 P k)
      = timeEnc (val_main_v22 (F := Ideal) x2 x4 x6 (ix2 P (0 : Fin 1))) (fun k => val_main_v23 (F := Ideal) x8 (ix2 (0 : Fin 1) k))
          (fun k => val_main_v27 (F := Ideal) x9 (ix2 (0 : Fin 1) k)) k := by
  have e24 : idx_main_v24 (ix2 P k) = ix2 P (0 : Fin 1) := funext fun a => Fin.ext (by
    match a with
    | ⟨0, _⟩ => rfl
    | ⟨1, _⟩ => rfl)
  have e25 : idx_main_v25 (ix2 P k) = ix2 (0 : Fin 1) k := funext fun a => Fin.ext (by
    match a with
    | ⟨0, _⟩ => rfl
    | ⟨1, _⟩ => rfl)
  have e28 : idx_main_v28 (ix2 P k) = ix2 (0 : Fin 1) k := funext fun a => Fin.ext (by
    match a with
    | ⟨0, _⟩ => rfl
    | ⟨1, _⟩ => rfl)
  rw [val_main_v30_apply, val_main_v29_apply, val_main_v26_apply, val_main_v24_apply, val_main_v25_apply, val_main_v28_apply, e24, e25, e28]
  rfl

/-! ## The first layer at an entry -/

theorem hidden_apply (x0 : (⟨S200000, .i32⟩ : BufTy).Contents (Elt Ideal)) (x1 : (⟨S200000, .i32⟩ : BufTy).Contents (Elt Ideal)) (x2 : (⟨S200000, .f32⟩ : BufTy).Contents (Elt Ideal)) (x3 : (⟨S200000, .i32⟩ : BufTy).Contents (Elt Ideal)) (x4 : (⟨S200000, .i32⟩ : BufTy).Contents (Elt Ideal)) (x5 : (⟨S1000000x128, .f32⟩ : BufTy).Contents (Elt Ideal)) (x6 : (⟨S1000000, .f32⟩ : BufTy).Contents (Elt Ideal)) (x7 : (⟨S500000x128, .f32⟩ : BufTy).Contents (Elt Ideal)) (x8 : (⟨S128, .f32⟩ : BufTy).Contents (Elt Ideal)) (x9 : (⟨S128, .f32⟩ : BufTy).Contents (Elt Ideal)) (x10 : (⟨S512x512, .f32⟩ : BufTy).Contents (Elt Ideal)) (P : Fin 200000) (j : Fin 512) :
    val_main_v39 (F := Ideal) x0 x1 x2 x3 x4 x5 x6 x7 x8 x9 x10 (ix2 P j)
      = hidden (fun k => val_main_v6 (F := Ideal) x0 x5 (ix2 P k)) (fun k => val_main_v13 (F := Ideal) x1 x5 (ix2 P k))
          (fun k => val_main_v37 (F := Ideal) x3 x7 (ix2 P k)) (val_main_v22 (F := Ideal) x2 x4 x6 (ix2 P (0 : Fin 1)))
          (fun k => val_main_v23 (F := Ideal) x8 (ix2 (0 : Fin 1) k)) (fun k => val_main_v27 (F := Ideal) x9 (ix2 (0 : Fin 1) k))
          (fun a b => x10 (ix2 a b)) j := by
  have el : ∀ k, lidx_main_v39 (ix2 P j) k = ix2 P k := fun k => funext fun a => Fin.ext (by
    match a with
    | ⟨0, _⟩ => rfl
    | ⟨1, _⟩ => rfl)
  have er : ∀ k, ridx_main_v39 (ix2 P j) k = ix2 k j := fun k => funext fun a => Fin.ext (by
    match a with
    | ⟨0, _⟩ => rfl
    | ⟨1, _⟩ => rfl)
  rw [val_main_v39_apply]
  simp only [el, er]
  refine whole_eq_hidden _ _ _ _ _ _ (fun a b => x10 (ix2 a b))
    (fun k => val_main_v38 (F := Ideal) x0 x1 x2 x3 x4 x5 x6 x7 x8 x9 (ix2 P k)) (fun k => ?_) (fun k => ?_) (fun k => ?_) (fun k => ?_) j
  · unfold val_main_v38; exact concat_piece0 _ _ _ _ P k
  · unfold val_main_v38; exact concat_piece1 _ _ _ _ P k
  · unfold val_main_v38; exact (concat_piece2 _ _ _ _ P k).trans (timeEnc_apply x2 x4 x6 x8 x9 P k)
  · unfold val_main_v38; exact concat_piece3 _ _ _ _ P k

/-! ## The reference's result -/

theorem result_eq (x0 : (⟨S200000, .i32⟩ : BufTy).Contents (Elt Ideal)) (x1 : (⟨S200000, .i32⟩ : BufTy).Contents (Elt Ideal)) (x2 : (⟨S200000, .f32⟩ : BufTy).Contents (Elt Ideal)) (x3 : (⟨S200000, .i32⟩ : BufTy).Contents (Elt Ideal)) (x4 : (⟨S200000, .i32⟩ : BufTy).Contents (Elt Ideal)) (x5 : (⟨S1000000x128, .f32⟩ : BufTy).Contents (Elt Ideal)) (x6 : (⟨S1000000, .f32⟩ : BufTy).Contents (Elt Ideal)) (x7 : (⟨S500000x128, .f32⟩ : BufTy).Contents (Elt Ideal)) (x8 : (⟨S128, .f32⟩ : BufTy).Contents (Elt Ideal)) (x9 : (⟨S128, .f32⟩ : BufTy).Contents (Elt Ideal)) (x10 : (⟨S512x512, .f32⟩ : BufTy).Contents (Elt Ideal)) (x11 : (⟨S512, .f32⟩ : BufTy).Contents (Elt Ideal)) (x12 : (⟨S512x256, .f32⟩ : BufTy).Contents (Elt Ideal)) (x13 : (⟨S256, .f32⟩ : BufTy).Contents (Elt Ideal)) :
    val_main_v47 (F := Ideal) x0 x1 x2 x3 x4 x5 x6 x7 x8 x9 x10 x11 x12 x13
      = Garr (val_main_v6 (F := Ideal) x0 x5) (val_main_v13 (F := Ideal) x1 x5) (val_main_v22 (F := Ideal) x2 x4 x6)
          (val_main_v37 (F := Ideal) x3 x7) (val_main_v23 (F := Ideal) x8) (val_main_v27 (F := Ideal) x9) x10
          (val_main_v40 (F := Ideal) x11) x12 (val_main_v45 (F := Ideal) x13) := by
  funext i
  obtain ⟨P, q, rfl⟩ : ∃ (P : Fin 200000) (q : Fin 256), i = ix2 P q := ⟨i 0, i 1, eq_ix2 i⟩
  rw [Garr_at _ _ _ _ _ _ _ _ _ _ (ix2 P q) P q rfl rfl]
  unfold G out
  have e46 : idx_main_v46 (ix2 P q) = ix2 (0 : Fin 1) q := funext fun a => Fin.ext (by
    match a with
    | ⟨0, _⟩ => rfl
    | ⟨1, _⟩ => rfl)
  rw [val_main_v47_apply, val_main_v44_apply, val_main_v46_apply, e46]
  show (∑ k : Fin 512, _) + _ = (∑ k : Fin 512, _) + _
  congr 1
  refine Finset.sum_congr rfl fun k _ => ?_
  have el : lidx_main_v44 (ix2 P q) k = ix2 P k := funext fun a => Fin.ext (by
    match a with
    | ⟨0, _⟩ => rfl
    | ⟨1, _⟩ => rfl)
  have er : ridx_main_v44 (ix2 P q) k = ix2 k q := funext fun a => Fin.ext (by
    match a with
    | ⟨0, _⟩ => rfl
    | ⟨1, _⟩ => rfl)
  have e41 : idx_main_v41 (ix2 P k) = ix2 (0 : Fin 1) k := funext fun a => Fin.ext (by
    match a with
    | ⟨0, _⟩ => rfl
    | ⟨1, _⟩ => rfl)
  rw [el, er, val_main_v43_apply, val_main_v42_apply, hidden_apply, val_main_v41_apply, e41, val_main_call0_v0_apply,
    val_main_call0_cst_apply]
  show max (_ + _) (Ideal.ofBits .f32 0x00000000#32) * _ = _
  rw [Ideal.ofBits_zero_f32]

end Cert.ReferenceIdeal.RefValue

end
-- ==== Proof.lean ====
/-
  A two-layer perceptron over event messages: the kernel against its plain reference, over the extended reals.

  For each of 200000 events both programs gather a source row and a destination row of the node table, an entry of
  the update-time vector and a row of the event-feature table at the event's four indices, form the time encoding
  cos ((timestamp - update time) · freq + phase), and apply  out = max (msg · W1 + b1) 0 · W2 + b2  to the message
  msg = [ source | destination | time encoding | features ].

  The two programs differ in three ways, none of which changes the result on the extended reals.
  (1) The kernel's gathers replace a row whose wrapped index is out of range by a not-a-number fill; the reference's
      do not.  The precondition says every index i satisfies -N ≤ i < N for its table's row count N, so the wrapped
      index is always in range and the fill never shows (Cert.IndexRange, Cert.KernelIdeal.HostSide).
  (2) The kernel never joins the four pieces: it multiplies each by its own 128-row slice of W1 and adds the four
      products, where the reference makes one 512-term product.  A sum over 512 positions is the sum of its four
      blocks of 128 (Cert.RowMlp); no finiteness is needed.
  (3) The kernel works on 100 blocks of 2000 events and casts its matrix operands to a shorter float format; on the
      extended reals a change of format is the identity, and the blocks tile the result
      (Cert.KernelIdeal.BodyValue, BlockReads, ArrayValue).
  So both results are one function, Cert.ArraySpec.Garr, of the same ten arrays (Cert.ReferenceIdeal.RefValue for
  the reference).  The three frame claims are the generated frames; the idealization rewrote nothing.
-/
import proofs.«420605_j55997783605364_2_alg».proof.Defs
import proofs.«420605_j55997783605364_2_alg».proof.Proof.Gen.Kernel
import proofs.«420605_j55997783605364_2_alg».proof.Proof.Gen.Kernel.Skeleton
import proofs.«420605_j55997783605364_2_alg».proof.Proof.Gen.Kernel.Launch
import proofs.«420605_j55997783605364_2_alg».proof.Proof.Gen.Kernel.Points
import proofs.«420605_j55997783605364_2_alg».proof.Proof.Gen.Kernel.Frame
import proofs.«420605_j55997783605364_2_alg».proof.Proof.Gen.KernelIdeal
import proofs.«420605_j55997783605364_2_alg».proof.Proof.Gen.KernelIdeal.Skeleton
import proofs.«420605_j55997783605364_2_alg».proof.Proof.Gen.KernelIdeal.Launch
import proofs.«420605_j55997783605364_2_alg».proof.Proof.Gen.KernelIdeal.Points
import proofs.«420605_j55997783605364_2_alg».proof.Proof.Gen.KernelIdeal.Frame
import proofs.«420605_j55997783605364_2_alg».proof.Proof.Gen.ReferenceIdeal
import proofs.«420605_j55997783605364_2_alg».proof.Proof.Gen.Pre_finite_inputs
import proofs.«420605_j55997783605364_2_alg».proof.Proof.Gen.KernelIdeal.Value
import proofs.«420605_j55997783605364_2_alg».proof.Proof.Gen.ReferenceIdeal.Run
import proofs.«420605_j55997783605364_2_alg».proof.Proof.Gen.ReferenceIdeal.Read
import proofs.«420605_j55997783605364_2_alg».proof.Proof.IndexRange
import proofs.«420605_j55997783605364_2_alg».proof.Proof.ArraySpec
import proofs.«420605_j55997783605364_2_alg».proof.Proof.Views
import proofs.«420605_j55997783605364_2_alg».proof.Proof.HostSide
import proofs.«420605_j55997783605364_2_alg».proof.Proof.ArrayValue
import proofs.«420605_j55997783605364_2_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The idealized kernel runs and leaves its arguments unchanged: the generated frame. -/
theorem frame_kernelIdeal : Cert.frame_KernelIdeal := fun m ρ _ => Cert.KernelIdeal.Gen.frame m ρ

/-- The idealized reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with every index in range, both programs end with the same result:
    the result function of the ten operand arrays, which the two programs build from the same argument arrays. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  obtain ⟨h0, h1, h4, h3⟩ := Cert.IndexRange.ranges _ _ _ _ _ _ _ _ _ _ _ _ _ _ (hpre c)
  rw [a0, a1, a2, a3, a4, a5, a6, a7, a8, a9, a10, a11, a12, a13,
    Cert.ReferenceIdeal.Read.val_main_v47_eq, Cert.ReferenceIdeal.RefValue.result_eq]
  refine Cert.ArraySpec.Garr_congr ?_ ?_ ?_ ?_ ?_ ?_ ?_ ?_ ?_ ?_
  · exact (Cert.KernelIdeal.HostSide.srcRows m c h0).symm
  · exact (Cert.KernelIdeal.HostSide.dstRows m c h1).symm
  · exact (Cert.Views.col_view _ Cert.ReferenceIdeal.Gen.bcast_S200000_S200000x1_0 Cert.KernelIdeal.Gen.shapeCasts_S200000_S200000x1).trans
      (Cert.KernelIdeal.HostSide.dtCol m c h4).symm
  · exact (Cert.KernelIdeal.HostSide.featRows m c h3).symm
  · exact (Cert.Views.row_view _ Cert.ReferenceIdeal.Gen.bcast_S128_S1x128_1 Cert.KernelIdeal.Gen.shapeCasts_S128_S1x128).trans
      (Cert.KernelIdeal.HostSide.freqRow m c).symm
  · exact (Cert.Views.row_view _ Cert.ReferenceIdeal.Gen.bcast_S128_S1x128_1 Cert.KernelIdeal.Gen.shapeCasts_S128_S1x128).trans
      (Cert.KernelIdeal.HostSide.phaseRow m c).symm
  · exact (Cert.KernelIdeal.HostSide.weight1 m c).symm
  · exact (Cert.Views.row_view _ Cert.ReferenceIdeal.Gen.bcast_S512_S1x512_1 Cert.KernelIdeal.Gen.shapeCasts_S512_S1x512).trans
      (Cert.KernelIdeal.HostSide.bias1Row m c).symm
  · exact (Cert.KernelIdeal.HostSide.weight2 m c).symm
  · exact (Cert.Views.row_view _ Cert.ReferenceIdeal.Gen.bcast_S256_S1x256_1 Cert.KernelIdeal.Gen.shapeCasts_S256_S1x256).trans
      (Cert.KernelIdeal.HostSide.bias2Row m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
